-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8388608 : Shape := ⟨1, ![8388608]⟩
abbrev S262144 : Shape := ⟨1, ![262144]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S8388608 32) (main_arg2 : FVec F S262144 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S8388608 : Shape := ⟨1, ![8388608]⟩
abbrev S262144 : Shape := ⟨1, ![262144]⟩
abbrev S4096 : Shape := ⟨1, ![4096]⟩
abbrev S4096x2048 : Shape := ⟨2, ![4096, 2048]⟩
abbrev S4096x64 : Shape := ⟨2, ![4096, 64]⟩
abbrev S4096x4096 : Shape := ⟨2, ![4096, 4096]⟩
abbrev S256x2048 : Shape := ⟨2, ![256, 2048]⟩
abbrev S256x64 : Shape := ⟨2, ![256, 64]⟩
abbrev S256x4096 : Shape := ⟨2, ![256, 4096]⟩
abbrev S256x64x1 : Shape := ⟨3, ![256, 64, 1]⟩
abbrev S256x64x32 : Shape := ⟨3, ![256, 64, 32]⟩
abbrev S256x2048x1 : Shape := ⟨3, ![256, 2048, 1]⟩
abbrev S256x2048x2 : Shape := ⟨3, ![256, 2048, 2]⟩
abbrev S8192x4096 : Shape := ⟨2, ![8192, 4096]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 11
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S262144, .f32⟩
  | .hbm, ⟨3, _⟩ => ⟨S4096, .f32⟩
  | .hbm, ⟨4, _⟩ => ⟨S4096x2048, .i32⟩
  | .hbm, ⟨5, _⟩ => ⟨S4096x64, .f32⟩
  | .hbm, ⟨6, _⟩ => ⟨S4096x4096, .bf16⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S256x2048, .i32⟩
  | .local _ .vmem, ⟨1, _⟩ => ⟨S256x2048, .i32⟩
  | .local _ .vmem, ⟨2, _⟩ => ⟨S256x64, .f32⟩
  | .local _ .vmem, ⟨3, _⟩ => ⟨S256x64, .f32⟩
  | .local _ .vmem, ⟨4, _⟩ => ⟨S256x4096, .bf16⟩
  | .local _ .vmem, ⟨5, _⟩ => ⟨S256x4096, .bf16⟩
  | .local _ .vmem, ⟨6, _⟩ => ⟨S1024x512, .f32⟩
  | .local _ .vmem, ⟨7, _⟩ => ⟨S1024x512, .f32⟩
  | .local _ .vmem, ⟨8, _⟩ => ⟨S2048x512, .bf16⟩
  | .local _ .vmem, ⟨9, _⟩ => ⟨S2048x512, .bf16⟩
  | .local _ .vmem, ⟨10, _⟩ => ⟨S1x2048, .f32⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8388608_S4096x2048 : S8388608.ShapeCasts S4096x2048
  shapeCasts_S262144_S4096x64 : S262144.ShapeCasts S4096x64
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S256x64_S256x64x1 : S256x64.ShapeCasts S256x64x1
  shapeCasts_S256x64x1_S256x64x1 : S256x64x1.ShapeCasts S256x64x1
  broadcasts_S256x64x1_S256x64x32 : S256x64x1.Broadcasts S256x64x32
  shapeCasts_S256x64x32_S256x2048 : S256x64x32.ShapeCasts S256x2048
  bitsLt_bf16_f32 : FTy.bits .bf16 < FTy.bits .f32
  shapeCasts_S256x2048_S256x2048x1 : S256x2048.ShapeCasts S256x2048x1
  concatenates_S256x2048x1_S256x2048x1_S256x2048x2_d2 : Shape.Concatenates [S256x2048x1, S256x2048x1] S256x2048x2 2
  shapeCasts_S256x2048x2_S256x4096 : S256x2048x2.ShapeCasts S256x4096
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .i32 = 32 ∨ (Rect.block (s := S4096x2048) S256x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S8388608 : Shape := ⟨1, ![8388608]⟩
abbrev S262144 : Shape := ⟨1, ![262144]⟩
abbrev S4096 : Shape := ⟨1, ![4096]⟩
abbrev S16 : Shape := ⟨1, ![16]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S16777216x1 : Shape := ⟨2, ![16777216, 1]⟩
abbrev S262144x64 : Shape := ⟨2, ![262144, 64]⟩
abbrev S262144x1 : Shape := ⟨2, ![262144, 1]⟩
abbrev S4096x4096 : Shape := ⟨2, ![4096, 4096]⟩
abbrev S1x1x4096 : Shape := ⟨3, ![1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S262144, .f32⟩
  | .hbm, ⟨3, _⟩ => ⟨S4096, .f32⟩
  | .hbm, ⟨4, _⟩ => ⟨S16, .f32⟩
  | .hbm, ⟨5, _⟩ => ⟨S_, .i32⟩
  | .hbm, ⟨6, _⟩ => ⟨S8388608, .i32⟩
  | .hbm, ⟨7, _⟩ => ⟨S8388608, .i32⟩
  | .hbm, ⟨8, _⟩ => ⟨S_, .i32⟩
  | .hbm, ⟨9, _⟩ => ⟨S8388608, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S8388608x1, .i32⟩
  | .hbm, ⟨16, _⟩ => ⟨S8388608x2, .i32⟩
  | .hbm, ⟨17, _⟩ => ⟨S16777216, .i32⟩
  | .hbm, ⟨18, _⟩ => ⟨S_, .i32⟩
  | .hbm, ⟨19, _⟩ => ⟨S16777216, .i32⟩
  | .hbm, ⟨20, _⟩ => ⟨S16777216, .i1⟩
  | .hbm, ⟨21, _⟩ => ⟨S_, .i32⟩
  | .hbm, ⟨22, _⟩ => ⟨S16777216, .i32⟩
  | .hbm, ⟨23, _⟩ => ⟨S16777216, .i32⟩
  | .hbm, ⟨24, _⟩ => ⟨S16777216, .i32⟩
  | .hbm, ⟨25, _⟩ => ⟨S16777216x1, .i32⟩
  | .hbm, ⟨26, _⟩ => ⟨S16777216, .f32⟩
  | .hbm, ⟨27, _⟩ => ⟨S262144x64, .f32⟩
  | .hbm, ⟨28, _⟩ => ⟨S262144x1, .f32⟩
  | .hbm, ⟨29, _⟩ => ⟨S262144x64, .f32⟩
  | .hbm, ⟨30, _⟩ => ⟨S262144x64, .f32⟩
  | .hbm, ⟨31, _⟩ => ⟨S4096x4096, .f32⟩
  | .hbm, ⟨32, _⟩ => ⟨S4x2048x4096, .f32⟩
  | .hbm, ⟨33, _⟩ => ⟨S1x1x4096, .f32⟩
  | .hbm, ⟨34, _⟩ => ⟨S4x2048x4096, .f32⟩
  | .hbm, ⟨35, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S262144x64 : S16777216.ShapeCasts S262144x64
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S16_S16777216x1_S16777216_n_0_n_n_0_1_1_wf : GatherDims.WF S16 S16777216x1 S16777216 [] [0] [] [0] [] 1 ![1]
  dot_S4x2048x4096_S4096x4096_S4x2048x4096_2_1_01_0_n_n_wf : DotDims.WF S4x2048x4096 S4096x4096 S4x2048x4096 [2] [1] [0, 1] [0] [] []

variable [Facts₀]

def gather_S16_S16777216x1_S16777216_n_0_n_n_0_1_1 : GatherDims S16 S16777216x1 S16777216 where
  offsetDims := []
  collapsedSliceDims := [0]
  operandBatchingDims := []
  startIndicesBatchingDims := []
  startIndexMap := [0]
  indexVectorDim := 1
  sliceSizes := ![1]
  wf := gather_S16_S16777216x1_S16777216_n_0_n_n_0_1_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.K.Pay.lean ====
/-
  The dequantization kernel's one store, as a function of the two blocks its body loads: the packed words' block
  `x0` (256 rows of 2048 words) and the scales' block `x1` (256 rows of 64 scales). The stored block has 256 rows of
  4096 entries: entry 2j of a row from the high nibble of word j, entry 2j+1 from its low nibble, each the
  codebook value of the nibble times the scale of the entry's group of 64.
-/
import proofs.«409063_j22093311771209_3_alg».proof.Proof.Gen.Kernel.Skeleton

noncomputable section

namespace Cert.Kernel.Hand

open Idealize.ShloMosaic Cert.Kernel Cert.Kernel.Gen

variable {F : FTy → Type} [FloatOps F]

/-- The block the body stores, from the blocks it loads: the body's pure stages composed in the order the body
    applies them. -/
def blk0 (x0 : Vec F S256x2048 .i32) (x1 : Vec F S256x64 .f32) : FVec F S256x4096 .bf16 :=
  k0_pay1 (k0_pay5 x1)
    (k0_pay13 (k0_pay5 x1) (k0_pay6 x0) (k0_pay7 x0) (k0_pay8 x0) (k0_pay9 x0) (k0_pay10 x0) (k0_pay11 x0) (k0_pay12 x0))
    (k0_pay18 (k0_pay14 (k0_pay4 x0)) (k0_pay15 (k0_pay4 x0)) (k0_pay16 (k0_pay4 x0)) (k0_pay17 (k0_pay4 x0)))

end Cert.Kernel.Hand

end
-- ==== Proof.K.R0.lean ====
/-
  The dequantization pallas_call (the program's first kernel region) at the contents `V` the unscoped buffers hold
  when the region is entered: each window's block at a grid point, the block the body stores as a function of the
  two blocks it loads, the body's triple, and the pipeline's proof data with its body obligation. The body is
  straight-line: it loads the packed words' block and the scales' block whole, and stores the dequantized block
  whole; nothing is carried from one grid point to the next.
-/
import proofs.«409063_j22093311771209_3_alg».proof.Proof.Gen.Kernel.Launch
import proofs.«409063_j22093311771209_3_alg».proof.Proof.Gen.Kernel.Skeleton
import proofs.«409063_j22093311771209_3_alg».proof.Proof.Gen.Kernel.Points
import proofs.«409063_j22093311771209_3_alg».proof.Proof.K.Pay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The packed words' staging buffer holds the point's block when the body runs, for any proof data over `V`'s
    arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the scales' staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S256x2048 := Rect.unit (s := S256x2048) ![0, 0] S256x2048.size inb_S256x2048_S256x2048_0_0
abbrev r0_1 : Rect S256x64 := Rect.unit (s := S256x64) ![0, 0] S256x64.size inb_S256x64_S256x64_0_0
abbrev r0_2 : Rect S256x4096 := Rect.unit (s := S256x4096) ![0, 0] S256x4096.size inb_S256x4096_S256x4096_0_0

/-- The output's staging buffer after the body, from the two input blocks: its one store, of the whole buffer. -/
def out0_2 (x0 : Vec F S256x2048 .i32) (x1 : Vec F S256x64 .f32) : Vec F S256x4096 .bf16 :=
  View.canon [⟨r0_2, blk0 (View.ld x0 r0_0) (View.ld x1 r0_1)⟩]

/-- The one store covers the buffer. -/
theorem cover0_2 (p0 : Vec F S256x4096 .bf16) (y : S256x4096.Idx) :
    ∃ pc ∈ ([⟨r0_2, p0⟩] : List (View.Piece (Elt F) S256x4096 .bf16)), y ∈ pc.1.set :=
  View.cover_of_tiled [⟨r0_2, p0⟩] S256x4096.size (by rfl) y

/-! ## The body's triple -/

set_option maxHeartbeats 2000000 in
/-- On whole staging memrefs, the inputs' at `x0`, `x1` and the output's at anything, the body runs to the
    continuation holding the inputs' as they were and the output's at `out0_2 x0 x1`. -/
theorem sound_kernel0 (c : Dev nD) (E : Set ℕ) (i : grid0.Coords) (arg1 : Memref sig .tc .vmem S256x2048 .i32) (harg1 : arg1.IsWhole) (arg2 : Memref sig .tc .vmem S256x64 .f32) (harg2 : arg2.IsWhole) (arg3 : Memref sig .tc .vmem S256x4096 .bf16) (harg3 : arg3.IsWhole)
    (x0 : Vec F S256x2048 .i32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data of the region on core `c`: the arrays as the region finds them; after the body at point `t` each
    input's buffer at its block and the output's at `out0_2` of the input blocks; the invariant says the other scoped
    buffers and the generator register are held at something; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
/-
  The matmul pallas_call (the program's second kernel region) at the contents `V` the unscoped buffers hold when the
  region is entered: what its three control cases share. The body has two conditionals on the innermost grid
  coordinate k: at k = 0 it first zeroes the accumulator scratch; at every point it adds the product of the two
  loaded blocks to the accumulator; at k = 7 it stores accumulator plus bias into the output's staging buffer. The
  accumulator is carried from each point to the next; the output window is idle except at k = 7, where it is also
  written back. The grid is 8 × 2 × 8 with k innermost, so k is the point number modulo 8.
-/
import proofs.«409063_j22093311771209_3_alg».proof.Proof.Gen.Kernel.Launch
import proofs.«409063_j22093311771209_3_alg».proof.Proof.Gen.Kernel.Skeleton
import proofs.«409063_j22093311771209_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the point's block when the body runs, fetched at that point or not (where
    it is not fetched its block index has not moved), for any proof data over `V`'s arrays whose body leaves the
    block in place: the activations' window, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the weight's window, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- and the bias's window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional's condition (k = 0), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (k = 7). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k = 0 the body stores nothing into the output's buffer, and the pipeline does not write it back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same where 0 < k < 7. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where k = 7 the output's window is live. -/
theorem liveAt1_3_C : ∀ t : Fin cfg1.N, ¬cond1_0 (grid1.coords t) → cond1_1 (grid1.coords t) → cfg1.idle 3 (grid1.coords t) = false := by decide +kernel

/-! ## The memrefs the body runs on -/

/-- One staging buffer of the output window, through which its contents are stated. -/
abbrev VO1_3 : View sig .tc .vmem S1024x2048 .f32 := (Memref.whole cc1_stg3_0 : Memref sig .tc .vmem S1024x2048 .f32).view
/-- Each window's current staging memref at point `t`, as the pipeline passes it, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x2048 .f32 := Memref.whole cc1_scratch0
abbrev VS1_0 : View sig .tc .vmem S1024x2048 .f32 := scM1_0.view

/-- A scoped buffer held whole at some contents. -/
abbrev heldAny (c : Dev nD) (b : Ref sig .tc) : sProp 𝕄 :=
  iprop(∃ f : Buf (Elt F) ((c : Thread nD τ).loc b), ((c : Thread nD τ).loc b) ↦{fullShare} f)

/-- The scoped buffers that are neither this region's staging buffers nor the accumulator (the other region's six
    staging buffers), each held at some contents. -/
def others1 (c : Dev nD) : sProp 𝕄 :=
  iprop(heldAny (F := F) c cc0_stg0_0 ∗ heldAny (F := F) c cc0_stg0_1 ∗ heldAny (F := F) c cc0_stg1_0 ∗ heldAny (F := F) c cc0_stg1_1 ∗ heldAny (F := F) c cc0_stg2_0 ∗ heldAny (F := F) c cc0_stg2_1)

/-- What the region's invariant says when nothing is known of the accumulator: those six, the accumulator at some
    contents, and the generator register at some state. -/
theorem PhiA1_eq (c : Dev nD) :
    (Pipeline.ΦA spec1 c : sProp 𝕄)
      = iprop((others1 (F := F) c ∗ (∃ d, owns (c : Thread nD τ) scM1_0 fullShare d)) ∗ (∃ r, prngReg c r)) := by
  unfold Pipeline.ΦA; rw [scopedRest1_eq]; simp only [scM1_0, owns_whole, others1]
  refine Idealize.SL.BI.Entails.antisymm (show (_ : sProp 𝕄) ⊢ _ from ?_) (show (_ : sProp 𝕄) ⊢ _ from ?_)
  · iintro ⟨⟨Ha, Hb, Hc, Hd, He, Hf, HS⟩, Hg⟩
    isplitr [Hg]
    · isplitr [HS]
      · isplitl [Ha]; · iexact Ha
        isplitl [Hb]; · iexact Hb
        isplitl [Hc]; · iexact Hc
        isplitl [Hd]; · iexact Hd
        isplitl [He]; · iexact He
        iexact Hf
      iexact HS
    iexact Hg
  · iintro ⟨⟨⟨Ha, Hb, Hc, Hd, He, Hf⟩, HS⟩, Hg⟩
    isplitr [Hg]
    · isplitl [Ha]; · iexact Ha
      isplitl [Hb]; · iexact Hb
      isplitl [Hc]; · iexact Hc
      isplitl [Hd]; · iexact Hd
      isplitl [He]; · iexact He
      isplitl [Hf]; · iexact Hf
      iexact HS
    iexact Hg

end Cert.Kernel.Hand

end
-- ==== Proof.K.R1RunA.lean ====
/-
  The matmul body at a point with k = 0: it zeroes the accumulator, adds the two loaded blocks' product to it, and
  stores nothing into the output's buffer. What the accumulator ends with, as the list of the pieces stored into it
  (last first), comes with the proof that the body runs to its end from whole staging memrefs.
-/
import proofs.«409063_j22093311771209_3_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- Case k = 0: the inputs' memrefs at their contents and handed back as they were, the output's at contents handed
    back untouched, the accumulator at anything and left with its pieces written. -/
noncomputable def kernelRun1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.R1RunB.lean ====
/-
  The matmul body at a point with 0 < k < 7: it adds the two loaded blocks' product to the accumulator, which holds
  what the point before left, and stores nothing into the output's buffer.
-/
import proofs.«409063_j22093311771209_3_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- Case 0 < k < 7: the inputs' memrefs at their contents and handed back as they were, the output's at contents
    handed back untouched, the accumulator at the contents `xs0` the point before left and left with its pieces
    written. -/
noncomputable def kernelRun1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.R1RunC.lean ====
/-
  The matmul body at a point with k = 7: it adds the two loaded blocks' product to the accumulator, which holds what
  the point before left, and stores accumulator plus bias into the output's buffer.
-/
import proofs.«409063_j22093311771209_3_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- Case k = 7: the inputs' memrefs at their contents and handed back as they were, the output's at anything and
    left with its pieces written, the accumulator at the contents `xs0` the point before left and left with its
    pieces written. -/
noncomputable def kernelRun1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.R1.lean ====
/-
  The matmul pallas_call at the entry contents `V`: what the output's staging buffer and the accumulator hold after
  each grid point, the region's invariant (which carries the accumulator's contents from a point to the next), the
  pipeline's proof data and its body obligation. The accumulator after a point with k = 0 depends on that point's
  blocks only; after any other point it is the body's update of what the point before left. The invariant before
  the first point knows nothing of the accumulator, and after the last point its contents are forgotten again.
-/
import proofs.«409063_j22093311771209_3_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What the output's staging buffer holds after the body (nothing is stored: a placeholder nothing consults, the window being idle and not written back there). -/
def out1_A_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) : Vec F S1024x2048 .f32 :=
  VO1_3.read (Elt F) (VO1_3.writes (Elt F) VO1_3.junk (kernelRun1_A c i arg3 harg3 arg4 harg4 arg5 harg5 arg6 harg6 arg7 harg7 hc0 hc1 x0 x1 x2).1)

/-- The pieces stored into the accumulator tile it, so they cover it. -/
theorem scover1_A_0 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y

/-- What the accumulator holds after the body: its pieces read back. -/
def sout1_A_0 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).2.1)

/-- What the output's staging buffer holds after the body (nothing is stored: a placeholder nothing consults, the window being idle and not written back there). -/
def out1_B_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) : Vec F S1024x2048 .f32 :=
  VO1_3.read (Elt F) (VO1_3.writes (Elt F) VO1_3.junk (kernelRun1_B c i arg3 harg3 arg4 harg4 arg5 harg5 arg6 harg6 arg7 harg7 hc0 hc1 x0 x1 x2 xs0).1)

/-- The pieces stored into the accumulator tile it, so they cover it. -/
theorem scover1_B_0 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y

/-- What the accumulator holds after the body: its pieces read back. -/
def sout1_B_0 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- The pieces stored into the output's buffer tile it, so they cover it. -/
theorem cover1_C_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- What the output's staging buffer holds after the body. -/
def out1_C_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-- The pieces stored into the accumulator tile it, so they cover it. -/
theorem scover1_C_0 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- What the accumulator holds after the body: its pieces read back. -/
def sout1_C_0 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the buffers hold after each point -/

/-- What the output's staging buffer and the accumulator hold after the body at position `n` (a pair, in that
    order): the case k selects, run at the point's memrefs and input blocks, the accumulator at what position
    `n - 1` left when k ≠ 0. -/
def outsAt1 (c : Dev nD) : (n : ℕ) → n < cfg1.N → Vec F S1024x2048 .f32 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point with k = 0. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point with 0 < k < 7: over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 7: over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first position nothing is known of the accumulator; afterwards it holds what the
    position before left, beside the other region's staging buffers at anything and the generator register at some
    state. -/
def PhiS (c : Dev nD) : (n : ℕ) → n ≤ cfg1.N → sProp 𝕄
  | 0, _ => Pipeline.ΦA spec1 c
  | n + 1, hn => iprop((others1 (F := F) c ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((others1 (F := F) c ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop((others1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt1`'s first component; the invariant `PhiS`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; k says which case the point is in; the invariant
    hands the body the accumulator at what the point before left (at anything at the first point) and takes it back
    at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨Hoth, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨Hoth, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS_castSucc V c t, PhiS_pos V c _ _ hz]
        iintro ⟨⟨⟨Hoth, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨Hoth, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the accumulator's contents may be forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hoth, HS0⟩, Hg⟩
  isplitl [Hoth HS0]
  · isplitl [Hoth]; · iexact Hoth
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.K.Run.lean ====
/-
  The whole program's run: @main is three stretches of host operations around the two kernel regions. The contents
  of the unscoped buffers at each boundary form a fold from the launch memory: a host stretch applies its
  operations; a region leaves each of its arrays at what its write-backs leave and every other buffer as it found
  it. Each region is entered from "every unscoped buffer held at the boundary's contents, the generator register at
  some state, nothing owed" and left in the same form at the next boundary's contents. The conclusion names every
  unscoped buffer's final contents, from which both the frame claim (the arguments end as launched) and the result's
  value are read.
-/
import proofs.«409063_j22093311771209_3_alg».proof.Proof.K.R0
import proofs.«409063_j22093311771209_3_alg».proof.Proof.K.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: what @main returns with. -/
abbrev W5 : Dev nD → Valuation τ sig (Elt F) := fun c => StableHlo.after hostOps2 (W4 m ρ c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W3`, left at `W4`. Its invariant
    starts and ends knowing nothing of the accumulator. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show ((pdats m ρ 1 c).Φ (Fin.last _) : sProp 𝕄) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show (iprop(StableHlo.held (c : Thread nD τ) (Pipeline.ucRefs τ sig) (W5 m ρ c) ∗ R c) : sProp 𝕄)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched -/

theorem hostOps0_writes : (hostOps0 : List (HloOp τ sig (Elt F))).Forall fun op => op.writes ⊆ (([main_v0, main_v1] : List (Ref sig .tc)).map (Proc.devRef (τ := τ) .tc)).toFinset := by
  simp only [List.Forall]; exact ⟨by simp only [StableHlo.reshape_writes, Finset.singleton_subset_iff, List.mem_toFinset]; exact List.mem_map_of_mem (by decide), by simp only [StableHlo.reshape_writes, Finset.singleton_subset_iff, List.mem_toFinset]; exact List.mem_map_of_mem (by decide)⟩
theorem hostOps1_writes : (hostOps1 : List (HloOp τ sig (Elt F))).Forall fun op => op.writes ⊆ (([main_v3, main_v4] : List (Ref sig .tc)).map (Proc.devRef (τ := τ) .tc)).toFinset := by
  simp only [List.Forall]; exact ⟨by simp only [StableHlo.reshape_writes, Finset.singleton_subset_iff, List.mem_toFinset]; exact List.mem_map_of_mem (by decide), by simp only [StableHlo.reshape_writes, Finset.singleton_subset_iff, List.mem_toFinset]; exact List.mem_map_of_mem (by decide)⟩
theorem hostOps2_writes : (hostOps2 : List (HloOp τ sig (Elt F))).Forall fun op => op.writes ⊆ (([main_v6] : List (Ref sig .tc)).map (Proc.devRef (τ := τ) .tc)).toFinset := by
  simp only [List.Forall]; exact (by simp only [StableHlo.reshape_writes, Finset.singleton_subset_iff, List.mem_toFinset]; exact List.mem_map_of_mem (by decide))

/-- A buffer that no host stretch writes and that is no array of either region reaches the end as launched. -/
theorem W5_untouched (c : Dev nD) (r : Ref sig .tc) (h0 : r ∉ ([main_v0, main_v1] : List (Ref sig .tc))) (h1 : r ∉ ([main_v3, main_v4] : List (Ref sig .tc)))
    (h2 : r ∉ ([main_v6] : List (Ref sig .tc))) (ha0 : ∀ w, Pipeline.arrRef spec0 w ≠ r) (ha1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r ha1
    _ = W2 m ρ c (Proc.devRef .tc r) := StableHlo.after_of_writes_sub hostOps1 _ hostOps1_writes h1
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

theorem W5_main_arg0 (c : Dev nD) : W5 m ρ c (Proc.devRef .tc main_arg0) = m ((c : Thread nD τ).loc main_arg0) :=
  W5_untouched m ρ c main_arg0 (by decide) (by decide) (by decide) (by decide) (by decide)
theorem W5_main_arg1 (c : Dev nD) : W5 m ρ c (Proc.devRef .tc main_arg1) = m ((c : Thread nD τ).loc main_arg1) :=
  W5_untouched m ρ c main_arg1 (by decide) (by decide) (by decide) (by decide) (by decide)
theorem W5_main_arg2 (c : Dev nD) : W5 m ρ c (Proc.devRef .tc main_arg2) = m ((c : Thread nD τ).loc main_arg2) :=
  W5_untouched m ρ c main_arg2 (by decide) (by decide) (by decide) (by decide) (by decide)
theorem W5_main_arg3 (c : Dev nD) : W5 m ρ c (Proc.devRef .tc main_arg3) = m ((c : Thread nD τ).loc main_arg3) :=
  W5_untouched m ρ c main_arg3 (by decide) (by decide) (by decide) (by decide) (by decide)

/-- The frame claim's post at any instance: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.Kernel.Hand

end
-- ==== Proof.KI.Pay.lean ====
/-
  The dequantization kernel's one store, as a function of the two blocks its body loads: the packed words' block
  `x0` (256 rows of 2048 words) and the scales' block `x1` (256 rows of 64 scales). The stored block has 256 rows of
  4096 entries: entry 2j of a row from the high nibble of word j, entry 2j+1 from its low nibble, each the
  codebook value of the nibble times the scale of the entry's group of 64.
-/
import proofs.«409063_j22093311771209_3_alg».proof.Proof.Gen.KernelIdeal.Skeleton

noncomputable section

namespace Cert.KernelIdeal.Hand

open Idealize.ShloMosaic Cert.KernelIdeal Cert.KernelIdeal.Gen

variable {F : FTy → Type} [FloatOps F]

/-- The block the body stores, from the blocks it loads: the body's pure stages composed in the order the body
    applies them. -/
def blk0 (x0 : Vec F S256x2048 .i32) (x1 : Vec F S256x64 .f32) : FVec F S256x4096 .bf16 :=
  k0_pay1 (k0_pay5 x1)
    (k0_pay13 (k0_pay5 x1) (k0_pay6 x0) (k0_pay7 x0) (k0_pay8 x0) (k0_pay9 x0) (k0_pay10 x0) (k0_pay11 x0) (k0_pay12 x0))
    (k0_pay18 (k0_pay14 (k0_pay4 x0)) (k0_pay15 (k0_pay4 x0)) (k0_pay16 (k0_pay4 x0)) (k0_pay17 (k0_pay4 x0)))

end Cert.KernelIdeal.Hand

end
-- ==== Proof.KI.R0.lean ====
/-
  The dequantization pallas_call (the program's first kernel region) at the contents `V` the unscoped buffers hold
  when the region is entered: each window's block at a grid point, the block the body stores as a function of the
  two blocks it loads, the body's triple, and the pipeline's proof data with its body obligation. The body is
  straight-line: it loads the packed words' block and the scales' block whole, and stores the dequantized block
  whole; nothing is carried from one grid point to the next.
-/
import proofs.«409063_j22093311771209_3_alg».proof.Proof.Gen.KernelIdeal.Launch
import proofs.«409063_j22093311771209_3_alg».proof.Proof.Gen.KernelIdeal.Skeleton
import proofs.«409063_j22093311771209_3_alg».proof.Proof.Gen.KernelIdeal.Points
import proofs.«409063_j22093311771209_3_alg».proof.Proof.KI.Pay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The packed words' staging buffer holds the point's block when the body runs, for any proof data over `V`'s
    arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the scales' staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S256x2048 := Rect.unit (s := S256x2048) ![0, 0] S256x2048.size inb_S256x2048_S256x2048_0_0
abbrev r0_1 : Rect S256x64 := Rect.unit (s := S256x64) ![0, 0] S256x64.size inb_S256x64_S256x64_0_0
abbrev r0_2 : Rect S256x4096 := Rect.unit (s := S256x4096) ![0, 0] S256x4096.size inb_S256x4096_S256x4096_0_0

/-- The output's staging buffer after the body, from the two input blocks: its one store, of the whole buffer. -/
def out0_2 (x0 : Vec F S256x2048 .i32) (x1 : Vec F S256x64 .f32) : Vec F S256x4096 .bf16 :=
  View.canon [⟨r0_2, blk0 (View.ld x0 r0_0) (View.ld x1 r0_1)⟩]

/-- The one store covers the buffer. -/
theorem cover0_2 (p0 : Vec F S256x4096 .bf16) (y : S256x4096.Idx) :
    ∃ pc ∈ ([⟨r0_2, p0⟩] : List (View.Piece (Elt F) S256x4096 .bf16)), y ∈ pc.1.set :=
  View.cover_of_tiled [⟨r0_2, p0⟩] S256x4096.size (by rfl) y

/-! ## The body's triple -/

set_option maxHeartbeats 2000000 in
/-- On whole staging memrefs, the inputs' at `x0`, `x1` and the output's at anything, the body runs to the
    continuation holding the inputs' as they were and the output's at `out0_2 x0 x1`. -/
theorem sound_kernel0 (c : Dev nD) (E : Set ℕ) (i : grid0.Coords) (arg1 : Memref sig .tc .vmem S256x2048 .i32) (harg1 : arg1.IsWhole) (arg2 : Memref sig .tc .vmem S256x64 .f32) (harg2 : arg2.IsWhole) (arg3 : Memref sig .tc .vmem S256x4096 .bf16) (harg3 : arg3.IsWhole)
    (x0 : Vec F S256x2048 .i32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data of the region on core `c`: the arrays as the region finds them; after the body at point `t` each
    input's buffer at its block and the output's at `out0_2` of the input blocks; the invariant says the other scoped
    buffers and the generator register are held at something; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/-
  The matmul pallas_call (the program's second kernel region) at the contents `V` the unscoped buffers hold when the
  region is entered: what its three control cases share. The body has two conditionals on the innermost grid
  coordinate k: at k = 0 it first zeroes the accumulator scratch; at every point it adds the product of the two
  loaded blocks to the accumulator; at k = 7 it stores accumulator plus bias into the output's staging buffer. The
  accumulator is carried from each point to the next; the output window is idle except at k = 7, where it is also
  written back. The grid is 8 × 2 × 8 with k innermost, so k is the point number modulo 8.
-/
import proofs.«409063_j22093311771209_3_alg».proof.Proof.Gen.KernelIdeal.Launch
import proofs.«409063_j22093311771209_3_alg».proof.Proof.Gen.KernelIdeal.Skeleton
import proofs.«409063_j22093311771209_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the point's block when the body runs, fetched at that point or not (where
    it is not fetched its block index has not moved), for any proof data over `V`'s arrays whose body leaves the
    block in place: the activations' window, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the weight's window, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- and the bias's window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional's condition (k = 0), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (k = 7). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k = 0 the body stores nothing into the output's buffer, and the pipeline does not write it back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same where 0 < k < 7. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where k = 7 the output's window is live. -/
theorem liveAt1_3_C : ∀ t : Fin cfg1.N, ¬cond1_0 (grid1.coords t) → cond1_1 (grid1.coords t) → cfg1.idle 3 (grid1.coords t) = false := by decide +kernel

/-! ## The memrefs the body runs on -/

/-- One staging buffer of the output window, through which its contents are stated. -/
abbrev VO1_3 : View sig .tc .vmem S1024x2048 .f32 := (Memref.whole cc1_stg3_0 : Memref sig .tc .vmem S1024x2048 .f32).view
/-- Each window's current staging memref at point `t`, as the pipeline passes it, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x2048 .f32 := Memref.whole cc1_scratch0
abbrev VS1_0 : View sig .tc .vmem S1024x2048 .f32 := scM1_0.view

/-- A scoped buffer held whole at some contents. -/
abbrev heldAny (c : Dev nD) (b : Ref sig .tc) : sProp 𝕄 :=
  iprop(∃ f : Buf (Elt F) ((c : Thread nD τ).loc b), ((c : Thread nD τ).loc b) ↦{fullShare} f)

/-- The scoped buffers that are neither this region's staging buffers nor the accumulator (the other region's six
    staging buffers), each held at some contents. -/
def others1 (c : Dev nD) : sProp 𝕄 :=
  iprop(heldAny (F := F) c cc0_stg0_0 ∗ heldAny (F := F) c cc0_stg0_1 ∗ heldAny (F := F) c cc0_stg1_0 ∗ heldAny (F := F) c cc0_stg1_1 ∗ heldAny (F := F) c cc0_stg2_0 ∗ heldAny (F := F) c cc0_stg2_1)

/-- What the region's invariant says when nothing is known of the accumulator: those six, the accumulator at some
    contents, and the generator register at some state. -/
theorem PhiA1_eq (c : Dev nD) :
    (Pipeline.ΦA spec1 c : sProp 𝕄)
      = iprop((others1 (F := F) c ∗ (∃ d, owns (c : Thread nD τ) scM1_0 fullShare d)) ∗ (∃ r, prngReg c r)) := by
  unfold Pipeline.ΦA; rw [scopedRest1_eq]; simp only [scM1_0, owns_whole, others1]
  refine Idealize.SL.BI.Entails.antisymm (show (_ : sProp 𝕄) ⊢ _ from ?_) (show (_ : sProp 𝕄) ⊢ _ from ?_)
  · iintro ⟨⟨Ha, Hb, Hc, Hd, He, Hf, HS⟩, Hg⟩
    isplitr [Hg]
    · isplitr [HS]
      · isplitl [Ha]; · iexact Ha
        isplitl [Hb]; · iexact Hb
        isplitl [Hc]; · iexact Hc
        isplitl [Hd]; · iexact Hd
        isplitl [He]; · iexact He
        iexact Hf
      iexact HS
    iexact Hg
  · iintro ⟨⟨⟨Ha, Hb, Hc, Hd, He, Hf⟩, HS⟩, Hg⟩
    isplitr [Hg]
    · isplitl [Ha]; · iexact Ha
      isplitl [Hb]; · iexact Hb
      isplitl [Hc]; · iexact Hc
      isplitl [Hd]; · iexact Hd
      isplitl [He]; · iexact He
      isplitl [Hf]; · iexact Hf
      iexact HS
    iexact Hg

end Cert.KernelIdeal.Hand

end
-- ==== Proof.KI.R1RunA.lean ====
/-
  The matmul body at a point with k = 0: it zeroes the accumulator, adds the two loaded blocks' product to it, and
  stores nothing into the output's buffer. What the accumulator ends with, as the list of the pieces stored into it
  (last first), comes with the proof that the body runs to its end from whole staging memrefs.
-/
import proofs.«409063_j22093311771209_3_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- Case k = 0: the inputs' memrefs at their contents and handed back as they were, the output's at contents handed
    back untouched, the accumulator at anything and left with its pieces written. -/
noncomputable def kernelRun1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R1RunB.lean ====
/-
  The matmul body at a point with 0 < k < 7: it adds the two loaded blocks' product to the accumulator, which holds
  what the point before left, and stores nothing into the output's buffer.
-/
import proofs.«409063_j22093311771209_3_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- Case 0 < k < 7: the inputs' memrefs at their contents and handed back as they were, the output's at contents
    handed back untouched, the accumulator at the contents `xs0` the point before left and left with its pieces
    written. -/
noncomputable def kernelRun1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R1RunC.lean ====
/-
  The matmul body at a point with k = 7: it adds the two loaded blocks' product to the accumulator, which holds what
  the point before left, and stores accumulator plus bias into the output's buffer.
-/
import proofs.«409063_j22093311771209_3_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- Case k = 7: the inputs' memrefs at their contents and handed back as they were, the output's at anything and
    left with its pieces written, the accumulator at the contents `xs0` the point before left and left with its
    pieces written. -/
noncomputable def kernelRun1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.R1.lean ====
/-
  The matmul pallas_call at the entry contents `V`: what the output's staging buffer and the accumulator hold after
  each grid point, the region's invariant (which carries the accumulator's contents from a point to the next), the
  pipeline's proof data and its body obligation. The accumulator after a point with k = 0 depends on that point's
  blocks only; after any other point it is the body's update of what the point before left. The invariant before
  the first point knows nothing of the accumulator, and after the last point its contents are forgotten again.
-/
import proofs.«409063_j22093311771209_3_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What the output's staging buffer holds after the body (nothing is stored: a placeholder nothing consults, the window being idle and not written back there). -/
def out1_A_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) : Vec F S1024x2048 .f32 :=
  VO1_3.read (Elt F) (VO1_3.writes (Elt F) VO1_3.junk (kernelRun1_A c i arg3 harg3 arg4 harg4 arg5 harg5 arg6 harg6 arg7 harg7 hc0 hc1 x0 x1 x2).1)

/-- The pieces stored into the accumulator tile it, so they cover it. -/
theorem scover1_A_0 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y

/-- What the accumulator holds after the body: its pieces read back. -/
def sout1_A_0 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).2.1)

/-- What the output's staging buffer holds after the body (nothing is stored: a placeholder nothing consults, the window being idle and not written back there). -/
def out1_B_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) : Vec F S1024x2048 .f32 :=
  VO1_3.read (Elt F) (VO1_3.writes (Elt F) VO1_3.junk (kernelRun1_B c i arg3 harg3 arg4 harg4 arg5 harg5 arg6 harg6 arg7 harg7 hc0 hc1 x0 x1 x2 xs0).1)

/-- The pieces stored into the accumulator tile it, so they cover it. -/
theorem scover1_B_0 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y

/-- What the accumulator holds after the body: its pieces read back. -/
def sout1_B_0 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- The pieces stored into the output's buffer tile it, so they cover it. -/
theorem cover1_C_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- What the output's staging buffer holds after the body. -/
def out1_C_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-- The pieces stored into the accumulator tile it, so they cover it. -/
theorem scover1_C_0 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- What the accumulator holds after the body: its pieces read back. -/
def sout1_C_0 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the buffers hold after each point -/

/-- What the output's staging buffer and the accumulator hold after the body at position `n` (a pair, in that
    order): the case k selects, run at the point's memrefs and input blocks, the accumulator at what position
    `n - 1` left when k ≠ 0. -/
def outsAt1 (c : Dev nD) : (n : ℕ) → n < cfg1.N → Vec F S1024x2048 .f32 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point with k = 0. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point with 0 < k < 7: over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 7: over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first position nothing is known of the accumulator; afterwards it holds what the
    position before left, beside the other region's staging buffers at anything and the generator register at some
    state. -/
def PhiS (c : Dev nD) : (n : ℕ) → n ≤ cfg1.N → sProp 𝕄
  | 0, _ => Pipeline.ΦA spec1 c
  | n + 1, hn => iprop((others1 (F := F) c ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((others1 (F := F) c ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop((others1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt1`'s first component; the invariant `PhiS`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; k says which case the point is in; the invariant
    hands the body the accumulator at what the point before left (at anything at the first point) and takes it back
    at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨Hoth, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨Hoth, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS_castSucc V c t, PhiS_pos V c _ _ hz]
        iintro ⟨⟨⟨Hoth, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨Hoth, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the accumulator's contents may be forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hoth, HS0⟩, Hg⟩
  isplitl [Hoth HS0]
  · isplitl [Hoth]; · iexact Hoth
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KI.Run.lean ====
/-
  The whole program's run: @main is three stretches of host operations around the two kernel regions. The contents
  of the unscoped buffers at each boundary form a fold from the launch memory: a host stretch applies its
  operations; a region leaves each of its arrays at what its write-backs leave and every other buffer as it found
  it. Each region is entered from "every unscoped buffer held at the boundary's contents, the generator register at
  some state, nothing owed" and left in the same form at the next boundary's contents. The conclusion names every
  unscoped buffer's final contents, from which both the frame claim (the arguments end as launched) and the result's
  value are read.
-/
import proofs.«409063_j22093311771209_3_alg».proof.Proof.KI.R0
import proofs.«409063_j22093311771209_3_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: what @main returns with. -/
abbrev W5 : Dev nD → Valuation τ sig (Elt F) := fun c => StableHlo.after hostOps2 (W4 m ρ c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W3`, left at `W4`. Its invariant
    starts and ends knowing nothing of the accumulator. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show ((pdats m ρ 1 c).Φ (Fin.last _) : sProp 𝕄) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show (iprop(StableHlo.held (c : Thread nD τ) (Pipeline.ucRefs τ sig) (W5 m ρ c) ∗ R c) : sProp 𝕄)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched -/

theorem hostOps0_writes : (hostOps0 : List (HloOp τ sig (Elt F))).Forall fun op => op.writes ⊆ (([main_v0, main_v1] : List (Ref sig .tc)).map (Proc.devRef (τ := τ) .tc)).toFinset := by
  simp only [List.Forall]; exact ⟨by simp only [StableHlo.reshape_writes, Finset.singleton_subset_iff, List.mem_toFinset]; exact List.mem_map_of_mem (by decide), by simp only [StableHlo.reshape_writes, Finset.singleton_subset_iff, List.mem_toFinset]; exact List.mem_map_of_mem (by decide)⟩
theorem hostOps1_writes : (hostOps1 : List (HloOp τ sig (Elt F))).Forall fun op => op.writes ⊆ (([main_v3, main_v4] : List (Ref sig .tc)).map (Proc.devRef (τ := τ) .tc)).toFinset := by
  simp only [List.Forall]; exact ⟨by simp only [StableHlo.reshape_writes, Finset.singleton_subset_iff, List.mem_toFinset]; exact List.mem_map_of_mem (by decide), by simp only [StableHlo.reshape_writes, Finset.singleton_subset_iff, List.mem_toFinset]; exact List.mem_map_of_mem (by decide)⟩
theorem hostOps2_writes : (hostOps2 : List (HloOp τ sig (Elt F))).Forall fun op => op.writes ⊆ (([main_v6] : List (Ref sig .tc)).map (Proc.devRef (τ := τ) .tc)).toFinset := by
  simp only [List.Forall]; exact (by simp only [StableHlo.reshape_writes, Finset.singleton_subset_iff, List.mem_toFinset]; exact List.mem_map_of_mem (by decide))

/-- A buffer that no host stretch writes and that is no array of either region reaches the end as launched. -/
theorem W5_untouched (c : Dev nD) (r : Ref sig .tc) (h0 : r ∉ ([main_v0, main_v1] : List (Ref sig .tc))) (h1 : r ∉ ([main_v3, main_v4] : List (Ref sig .tc)))
    (h2 : r ∉ ([main_v6] : List (Ref sig .tc))) (ha0 : ∀ w, Pipeline.arrRef spec0 w ≠ r) (ha1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r ha1
    _ = W2 m ρ c (Proc.devRef .tc r) := StableHlo.after_of_writes_sub hostOps1 _ hostOps1_writes h1
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

theorem W5_main_arg0 (c : Dev nD) : W5 m ρ c (Proc.devRef .tc main_arg0) = m ((c : Thread nD τ).loc main_arg0) :=
  W5_untouched m ρ c main_arg0 (by decide) (by decide) (by decide) (by decide) (by decide)
theorem W5_main_arg1 (c : Dev nD) : W5 m ρ c (Proc.devRef .tc main_arg1) = m ((c : Thread nD τ).loc main_arg1) :=
  W5_untouched m ρ c main_arg1 (by decide) (by decide) (by decide) (by decide) (by decide)
theorem W5_main_arg2 (c : Dev nD) : W5 m ρ c (Proc.devRef .tc main_arg2) = m ((c : Thread nD τ).loc main_arg2) :=
  W5_untouched m ρ c main_arg2 (by decide) (by decide) (by decide) (by decide) (by decide)
theorem W5_main_arg3 (c : Dev nD) : W5 m ρ c (Proc.devRef .tc main_arg3) = m ((c : Thread nD τ).loc main_arg3) :=
  W5_untouched m ρ c main_arg3 (by decide) (by decide) (by decide) (by decide) (by decide)

/-- The frame claim's post at any instance: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Hand

end
-- ==== Proof.KIHost.lean ====
/-
  The program's host operations, read at an index. All five are reshapes, and a reshape read at an index is the
  operand at the index with the same row-major position: the flat packed words as 4096 rows of 2048, the flat scales
  as 4096 rows of 64, the activations `4 × 2048 × 4096` as 8192 rows of 4096 and back, the bias as one row.
-/
import proofs.«409063_j22093311771209_3_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.HandVal

open Cert.KernelIdeal Cert.KernelIdeal.Gen
open Idealize.ShloMosaic Idealize.ShloMosaic.TcCoe Idealize.ShloMosaic.ValueIdx Idealize.SL.Sem

variable {F : FTy → Type} [FloatOps F]

/-! ## The first stretch: the packed words and the scales as rows -/

theorem host0_v0 (W : Valuation τ sig (Elt F)) :
    StableHlo.after hostOps0 W (Proc.devRef .tc main_v0)
      = shapeCast S4096x2048 (W (Proc.devRef .tc main_arg1)) shapeCasts_S8388608_S4096x2048 := by
  after_results
  rfl

theorem host0_v1 (W : Valuation τ sig (Elt F)) :
    StableHlo.after hostOps0 W (Proc.devRef .tc main_v1)
      = shapeCast S4096x64 (W (Proc.devRef .tc main_arg2)) shapeCasts_S262144_S4096x64 := by
  after_results
  rfl

/-- Word `j` of row `o` is flat word `2048 o + j`. -/
theorem host0_v0_apply (W : Valuation τ sig (Elt F)) (o : Fin 4096) (j : Fin 2048) :
    StableHlo.after hostOps0 W (Proc.devRef .tc main_v0) (ix2 o j)
      = W (Proc.devRef .tc main_arg1)
          (ix1 (⟨o.val * 2048 + j.val, by have := o.isLt; have := j.isLt; omega⟩ : Fin 8388608)) := by
  rw [host0_v0]
  exact shapeCast_apply (s := S8388608) (t := S4096x2048) _ _ _ _ (by
    rw [Shape.rowMajor_val_one, Shape.rowMajor_val_two]
    rfl)

/-- Scale `j` of row `o` is flat scale `64 o + j`. -/
theorem host0_v1_apply (W : Valuation τ sig (Elt F)) (o : Fin 4096) (j : Fin 64) :
    StableHlo.after hostOps0 W (Proc.devRef .tc main_v1) (ix2 o j)
      = W (Proc.devRef .tc main_arg2)
          (ix1 (⟨o.val * 64 + j.val, by have := o.isLt; have := j.isLt; omega⟩ : Fin 262144)) := by
  rw [host0_v1]
  exact shapeCast_apply (s := S262144) (t := S4096x64) _ _ _ _ (by
    rw [Shape.rowMajor_val_one, Shape.rowMajor_val_two]
    rfl)

/-! ## The second stretch: the activations as rows, the bias as one row -/

theorem host1_v3 (W : Valuation τ sig (Elt F)) :
    StableHlo.after hostOps1 W (Proc.devRef .tc main_v3)
      = shapeCast S8192x4096 (W (Proc.devRef .tc main_arg0)) shapeCasts_S4x2048x4096_S8192x4096 := by
  after_results
  rfl

theorem host1_v4 (W : Valuation τ sig (Elt F)) :
    StableHlo.after hostOps1 W (Proc.devRef .tc main_v4)
      = shapeCast S1x4096 (W (Proc.devRef .tc main_arg3)) shapeCasts_S4096_S1x4096 := by
  after_results
  rfl

/-- Row `r` of the activations is batch `r / 2048`, position `r % 2048`. -/
theorem host1_v3_apply (W : Valuation τ sig (Elt F)) (r : Fin 8192) (i : Fin 4096) :
    StableHlo.after hostOps1 W (Proc.devRef .tc main_v3) (ix2 r i)
      = W (Proc.devRef .tc main_arg0)
          (ix3 (⟨r.val / 2048, by have := r.isLt; omega⟩ : Fin 4) (⟨r.val % 2048, Nat.mod_lt _ (by decide)⟩ : Fin 2048) i) := by
  rw [host1_v3]
  exact shapeCast_apply (s := S4x2048x4096) (t := S8192x4096) _ _ _ _ (by
    rw [Shape.rowMajor_val_three, Shape.rowMajor_val_two]
    show (r.val / 2048 * 2048 + r.val % 2048) * 4096 + i.val = r.val * 4096 + i.val
    omega)

/-- The bias row at `o` is the bias at `o`. -/
theorem host1_v4_apply (W : Valuation τ sig (Elt F)) (u : Fin 1) (o : Fin 4096) :
    StableHlo.after hostOps1 W (Proc.devRef .tc main_v4) (ix2 u o) = W (Proc.devRef .tc main_arg3) (ix1 o) := by
  rw [host1_v4]
  exact shapeCast_apply (s := S4096) (t := S1x4096) _ _ _ _ (by
    have hu : u.val = 0 := by omega
    rw [Shape.rowMajor_val_one, Shape.rowMajor_val_two]
    show o.val = u.val * 4096 + o.val
    omega)

/-! ## The last stretch: the result's rows back as batches -/

theorem host2_v6 (W : Valuation τ sig (Elt F)) :
    StableHlo.after hostOps2 W (Proc.devRef .tc main_v6)
      = shapeCast S4x2048x4096 (W (Proc.devRef .tc main_v5)) shapeCasts_S8192x4096_S4x2048x4096 := by
  after_results
  rfl

/-- Batch `bb`, position `s` of the result is row `2048 bb + s`. -/
theorem host2_v6_apply (W : Valuation τ sig (Elt F)) (bb : Fin 4) (s : Fin 2048) (o : Fin 4096) :
    StableHlo.after hostOps2 W (Proc.devRef .tc main_v6) (ix3 bb s o)
      = W (Proc.devRef .tc main_v5)
          (ix2 (⟨bb.val * 2048 + s.val, by have := bb.isLt; have := s.isLt; omega⟩ : Fin 8192) o) := by
  rw [host2_v6]
  exact shapeCast_apply (s := S8192x4096) (t := S4x2048x4096) _ _ _ _ (by
    rw [Shape.rowMajor_val_three, Shape.rowMajor_val_two]
    rfl)

end Cert.KernelIdeal.HandVal

end
-- ==== Proof.Spec.lean ====
/-
  What both programs compute, as one function of the four argument arrays.

  A packed word holds two 4-bit codes: bits 4..7 (the high nibble) and bits 0..3 (the low nibble). A code `n`
  denotes the codebook entry `cb n`: codes 0..7 are the magnitudes 0, 0.0052, 0.6667, 1, 0.3333, 0.5, 0.1667, 0.25
  (as the f32 values nearest to them), and code `n + 8` is the negative of code `n`. The weight matrix has 4096 rows
  of 4096 entries; entry `e` of row `o` takes its code from word `e / 2` of the row (even `e`: the high nibble, odd
  `e`: the low nibble) and is scaled by the row's scale number `e / 64`. The result is the linear map
  `out[r, o] = (∑ i, x[r, i] * weight[o, i]) + bias[o]`.
-/
import Idealize.ShloMosaic.PureOps.Ideal
import Idealize.ShloMosaic.Lib.ValueIdx

noncomputable section

namespace Cert.Spec

open Idealize.ShloMosaic

/-- The codebook's sixteen f32 bit patterns, by code; code `n + 8` is code `n` with the sign bit set. -/
def cbWord : ℕ → BitVec 32
  | 0 => 0x00000000#32 | 1 => 0x3BAA64C3#32 | 2 => 0x3F2AACDA#32 | 3 => 0x3F800000#32
  | 4 => 0x3EAAA64C#32 | 5 => 0x3F000000#32 | 6 => 0x3E2AB368#32 | 7 => 0x3E800000#32
  | 8 => 0x00000000#32 | 9 => 0xBBAA64C3#32 | 10 => 0xBF2AACDA#32 | 11 => 0xBF800000#32
  | 12 => 0xBEAAA64C#32 | 13 => 0xBF000000#32 | 14 => 0xBE2AB368#32 | 15 => 0xBE800000#32
  | _ => 0#32

/-- The extended real a code denotes. -/
def cb (n : BitVec 32) : EReal := Ideal.ofBits .f32 (cbWord n.toNat)

/-- The high nibble of a packed word: bits 4..7. -/
def hiNib (w : BitVec 32) : BitVec 32 := (w >>> 4) &&& 15#32
/-- The low nibble of a packed word: bits 0..3. -/
def loNib (w : BitVec 32) : BitVec 32 := w &&& 15#32
/-- The code of entry `e` of a row, from the word that holds it: even entries the high nibble, odd entries the low. -/
def nib (w : BitVec 32) (e : ℕ) : BitVec 32 := if e % 2 = 0 then hiNib w else loNib w

/-- The dequantized weight: row `o`, entry `e`, from the packed words `P o j` (2048 a row) and the scales `S o j`
    (64 a row). -/
def weight (P : Fin 4096 → Fin 2048 → BitVec 32) (S : Fin 4096 → Fin 64 → EReal) (o e : Fin 4096) : EReal :=
  cb (nib (P o ⟨e.val / 2, by have := e.isLt; omega⟩) e.val) * S o ⟨e.val / 64, by have := e.isLt; omega⟩

/-- The linear map: row `r` of `X` against row `o` of the weight, plus the bias. -/
def linear (X : Fin 8192 → Fin 4096 → EReal) (Wt : Fin 4096 → Fin 4096 → EReal) (B : Fin 4096 → EReal)
    (r : Fin 8192) (o : Fin 4096) : EReal :=
  (∑ i : Fin 4096, X r i * Wt o i) + B o

/-- The whole result over the arrays as the programs take them: `x` as 4 × 2048 rows, the packed words and the
    scales flat. -/
def result (x : Fin 4 → Fin 2048 → Fin 4096 → EReal) (wp : Fin 8388608 → BitVec 32) (sc : Fin 262144 → EReal)
    (b : Fin 4096 → EReal) (bb : Fin 4) (s : Fin 2048) (o : Fin 4096) : EReal :=
  (∑ i : Fin 4096, x bb s i *
      (cb (nib (wp ⟨o.val * 2048 + i.val / 2, by have := o.isLt; have := i.isLt; omega⟩) i.val)
        * sc ⟨o.val * 64 + i.val / 64, by have := o.isLt; have := i.isLt; omega⟩)) + b o

/-- The flat form is the linear map over the weight matrix of the rows. -/
theorem result_eq (x : Fin 4 → Fin 2048 → Fin 4096 → EReal) (wp : Fin 8388608 → BitVec 32) (sc : Fin 262144 → EReal)
    (b : Fin 4096 → EReal) (bb : Fin 4) (s : Fin 2048) (o : Fin 4096) :
    result x wp sc b bb s o
      = linear (fun r i => x ⟨r.val / 2048, by have := r.isLt; omega⟩ ⟨r.val % 2048, Nat.mod_lt _ (by decide)⟩ i)
          (weight (fun o j => wp ⟨o.val * 2048 + j.val, by have := o.isLt; have := j.isLt; omega⟩)
            (fun o j => sc ⟨o.val * 64 + j.val, by have := o.isLt; have := j.isLt; omega⟩))
          b ⟨bb.val * 2048 + s.val, by have := bb.isLt; have := s.isLt; omega⟩ o := by
  unfold result linear weight
  have h1 : (bb.val * 2048 + s.val) / 2048 = bb.val := by have := s.isLt; omega
  have h2 : (bb.val * 2048 + s.val) % 2048 = s.val := by have := s.isLt; omega
  simp only [h1, h2, Fin.eta]

end Cert.Spec

end
-- ==== Proof.Val0Lut.lean ====
/-
  The code-to-value map of the dequantization, as a function of one code word.

  The body decides a code `n` (a word with only bits 0..3 possibly set) bit by bit: bits 0, 1, 2 choose one of eight
  magnitudes through nested selects, bit 3 chooses the factor -1 or 1, and the value is the magnitude when it is zero
  and the magnitude times the factor otherwise. On the extended reals zero times anything is zero, so the value is
  the magnitude times the factor in every case; the factor 1 leaves the magnitude and the factor -1 gives the codebook
  word with its sign bit set. Hence the value is the codebook entry of the code, for each of the sixteen codes.
-/
import proofs.«409063_j22093311771209_3_alg».proof.Proof.Spec
import Idealize.ShloMosaic.Lib.IdealHost

noncomputable section

namespace Cert.KernelIdeal.HandVal

open Idealize.ShloMosaic Idealize.ShloMosaic.ValueIdx

/-- The body's decoding of a code word: the magnitude from bits 0..2, the sign factor from bit 3, and the product
    guarded by the test "the magnitude is zero". -/
def lut (n : BitVec 32) : EReal :=
  Scalar.select
    (Ideal.cmp .oeq
      (Scalar.select (IntOp.cmpi .eq (IntOp.andi (IntOp.shrui .vector n 2#32) 1#32) 1#32)
        (Scalar.select (IntOp.cmpi .eq (IntOp.andi (IntOp.shrui .vector n 1#32) 1#32) 1#32)
          (Scalar.select (IntOp.cmpi .eq (IntOp.andi n 1#32) 1#32)
            (Ideal.ofBits .f32 0x3E800000#32) (Ideal.ofBits .f32 0x3E2AB368#32))
          (Scalar.select (IntOp.cmpi .eq (IntOp.andi n 1#32) 1#32)
            (Ideal.ofBits .f32 0x3F000000#32) (Ideal.ofBits .f32 0x3EAAA64C#32)))
        (Scalar.select (IntOp.cmpi .eq (IntOp.andi (IntOp.shrui .vector n 1#32) 1#32) 1#32)
          (Scalar.select (IntOp.cmpi .eq (IntOp.andi n 1#32) 1#32)
            (Ideal.ofBits .f32 0x3F800000#32) (Ideal.ofBits .f32 0x3F2AACDA#32))
          (Scalar.select (IntOp.cmpi .eq (IntOp.andi n 1#32) 1#32)
            (Ideal.ofBits .f32 0x3BAA64C3#32) (Ideal.ofBits .f32 0x00000000#32))))
      (Ideal.ofBits .f32 0x00000000#32))
    (Scalar.select (IntOp.cmpi .eq (IntOp.andi (IntOp.shrui .vector n 2#32) 1#32) 1#32)
      (Scalar.select (IntOp.cmpi .eq (IntOp.andi (IntOp.shrui .vector n 1#32) 1#32) 1#32)
        (Scalar.select (IntOp.cmpi .eq (IntOp.andi n 1#32) 1#32)
          (Ideal.ofBits .f32 0x3E800000#32) (Ideal.ofBits .f32 0x3E2AB368#32))
        (Scalar.select (IntOp.cmpi .eq (IntOp.andi n 1#32) 1#32)
          (Ideal.ofBits .f32 0x3F000000#32) (Ideal.ofBits .f32 0x3EAAA64C#32)))
      (Scalar.select (IntOp.cmpi .eq (IntOp.andi (IntOp.shrui .vector n 1#32) 1#32) 1#32)
        (Scalar.select (IntOp.cmpi .eq (IntOp.andi n 1#32) 1#32)
          (Ideal.ofBits .f32 0x3F800000#32) (Ideal.ofBits .f32 0x3F2AACDA#32))
        (Scalar.select (IntOp.cmpi .eq (IntOp.andi n 1#32) 1#32)
          (Ideal.ofBits .f32 0x3BAA64C3#32) (Ideal.ofBits .f32 0x00000000#32))))
    ((Scalar.select (IntOp.cmpi .eq (IntOp.andi (IntOp.shrui .vector n 2#32) 1#32) 1#32)
      (Scalar.select (IntOp.cmpi .eq (IntOp.andi (IntOp.shrui .vector n 1#32) 1#32) 1#32)
        (Scalar.select (IntOp.cmpi .eq (IntOp.andi n 1#32) 1#32)
          (Ideal.ofBits .f32 0x3E800000#32) (Ideal.ofBits .f32 0x3E2AB368#32))
        (Scalar.select (IntOp.cmpi .eq (IntOp.andi n 1#32) 1#32)
          (Ideal.ofBits .f32 0x3F000000#32) (Ideal.ofBits .f32 0x3EAAA64C#32)))
      (Scalar.select (IntOp.cmpi .eq (IntOp.andi (IntOp.shrui .vector n 1#32) 1#32) 1#32)
        (Scalar.select (IntOp.cmpi .eq (IntOp.andi n 1#32) 1#32)
          (Ideal.ofBits .f32 0x3F800000#32) (Ideal.ofBits .f32 0x3F2AACDA#32))
        (Scalar.select (IntOp.cmpi .eq (IntOp.andi n 1#32) 1#32)
          (Ideal.ofBits .f32 0x3BAA64C3#32) (Ideal.ofBits .f32 0x00000000#32))))
      * Scalar.select (IntOp.cmpi .eq (IntOp.andi (IntOp.shrui .vector n 3#32) 1#32) 1#32)
          (Ideal.ofBits .f32 0xBF800000#32) (Ideal.ofBits .f32 0x3F800000#32))

/-- Guarding a product by "the first factor is zero" changes nothing: zero times anything is zero. -/
theorem sel_zero_mul (m s : EReal) :
    Scalar.select (Ideal.cmp .oeq m (Ideal.ofBits .f32 0x00000000#32)) m (m * s) = m * s := by
  rw [Ideal.ofBits_zero_f32]
  by_cases h : m = 0
  · subst h
    rw [zero_mul]
    unfold Scalar.select; split <;> rfl
  · have hc : Ideal.cmp .oeq m 0 = 0#1 := by
      unfold Ideal.cmp
      simp [h]
    rw [hc, select_zero]

/-- Each nonzero magnitude times the factor -1 is the same word with its sign bit set. -/
theorem neg1 : Ideal.ofBits .f32 0x3BAA64C3#32 * Ideal.ofBits .f32 0xBF800000#32 = Ideal.ofBits .f32 0xBBAA64C3#32 := by
  simp [Ideal.ofBits, Ideal.ieee, -EReal.coe_mul, -EReal.coe_neg]; norm_num
theorem neg2 : Ideal.ofBits .f32 0x3F2AACDA#32 * Ideal.ofBits .f32 0xBF800000#32 = Ideal.ofBits .f32 0xBF2AACDA#32 := by
  simp [Ideal.ofBits, Ideal.ieee, -EReal.coe_mul, -EReal.coe_neg]; norm_num
theorem neg3 : Ideal.ofBits .f32 0x3F800000#32 * Ideal.ofBits .f32 0xBF800000#32 = Ideal.ofBits .f32 0xBF800000#32 := by
  rw [Ideal.ofBits_one_f32, one_mul]
theorem neg4 : Ideal.ofBits .f32 0x3EAAA64C#32 * Ideal.ofBits .f32 0xBF800000#32 = Ideal.ofBits .f32 0xBEAAA64C#32 := by
  simp [Ideal.ofBits, Ideal.ieee, -EReal.coe_mul, -EReal.coe_neg]; norm_num
theorem neg5 : Ideal.ofBits .f32 0x3F000000#32 * Ideal.ofBits .f32 0xBF800000#32 = Ideal.ofBits .f32 0xBF000000#32 := by
  simp [Ideal.ofBits, Ideal.ieee, -EReal.coe_mul, -EReal.coe_neg]; norm_num
theorem neg6 : Ideal.ofBits .f32 0x3E2AB368#32 * Ideal.ofBits .f32 0xBF800000#32 = Ideal.ofBits .f32 0xBE2AB368#32 := by
  simp [Ideal.ofBits, Ideal.ieee, -EReal.coe_mul, -EReal.coe_neg]; norm_num
theorem neg7 : Ideal.ofBits .f32 0x3E800000#32 * Ideal.ofBits .f32 0xBF800000#32 = Ideal.ofBits .f32 0xBE800000#32 := by
  simp [Ideal.ofBits, Ideal.ieee, -EReal.coe_mul, -EReal.coe_neg]; norm_num

/-- The decoding of a code is its codebook entry. -/
theorem lut_eq (n : BitVec 32) (hn : n.toNat < 16) : lut n = Cert.Spec.cb n := by
  obtain ⟨k, rfl⟩ : ∃ k : Fin 16, n = BitVec.ofNat 32 k.val :=
    ⟨⟨n.toNat, hn⟩, by simp⟩
  unfold lut
  rw [sel_zero_mul]
  fin_cases k
  · show Ideal.ofBits .f32 0x00000000#32 * Ideal.ofBits .f32 0x3F800000#32 = Ideal.ofBits .f32 0x00000000#32
    rw [Ideal.ofBits_one_f32, mul_one]
  · show Ideal.ofBits .f32 0x3BAA64C3#32 * Ideal.ofBits .f32 0x3F800000#32 = Ideal.ofBits .f32 0x3BAA64C3#32
    rw [Ideal.ofBits_one_f32, mul_one]
  · show Ideal.ofBits .f32 0x3F2AACDA#32 * Ideal.ofBits .f32 0x3F800000#32 = Ideal.ofBits .f32 0x3F2AACDA#32
    rw [Ideal.ofBits_one_f32, mul_one]
  · show Ideal.ofBits .f32 0x3F800000#32 * Ideal.ofBits .f32 0x3F800000#32 = Ideal.ofBits .f32 0x3F800000#32
    rw [Ideal.ofBits_one_f32, mul_one]
  · show Ideal.ofBits .f32 0x3EAAA64C#32 * Ideal.ofBits .f32 0x3F800000#32 = Ideal.ofBits .f32 0x3EAAA64C#32
    rw [Ideal.ofBits_one_f32, mul_one]
  · show Ideal.ofBits .f32 0x3F000000#32 * Ideal.ofBits .f32 0x3F800000#32 = Ideal.ofBits .f32 0x3F000000#32
    rw [Ideal.ofBits_one_f32, mul_one]
  · show Ideal.ofBits .f32 0x3E2AB368#32 * Ideal.ofBits .f32 0x3F800000#32 = Ideal.ofBits .f32 0x3E2AB368#32
    rw [Ideal.ofBits_one_f32, mul_one]
  · show Ideal.ofBits .f32 0x3E800000#32 * Ideal.ofBits .f32 0x3F800000#32 = Ideal.ofBits .f32 0x3E800000#32
    rw [Ideal.ofBits_one_f32, mul_one]
  · show Ideal.ofBits .f32 0x00000000#32 * Ideal.ofBits .f32 0xBF800000#32 = Ideal.ofBits .f32 0x00000000#32
    rw [Ideal.ofBits_zero_f32, zero_mul]
  · show Ideal.ofBits .f32 0x3BAA64C3#32 * Ideal.ofBits .f32 0xBF800000#32 = Ideal.ofBits .f32 0xBBAA64C3#32
    exact neg1
  · show Ideal.ofBits .f32 0x3F2AACDA#32 * Ideal.ofBits .f32 0xBF800000#32 = Ideal.ofBits .f32 0xBF2AACDA#32
    exact neg2
  · show Ideal.ofBits .f32 0x3F800000#32 * Ideal.ofBits .f32 0xBF800000#32 = Ideal.ofBits .f32 0xBF800000#32
    exact neg3
  · show Ideal.ofBits .f32 0x3EAAA64C#32 * Ideal.ofBits .f32 0xBF800000#32 = Ideal.ofBits .f32 0xBEAAA64C#32
    exact neg4
  · show Ideal.ofBits .f32 0x3F000000#32 * Ideal.ofBits .f32 0xBF800000#32 = Ideal.ofBits .f32 0xBF000000#32
    exact neg5
  · show Ideal.ofBits .f32 0x3E2AB368#32 * Ideal.ofBits .f32 0xBF800000#32 = Ideal.ofBits .f32 0xBE2AB368#32
    exact neg6
  · show Ideal.ofBits .f32 0x3E800000#32 * Ideal.ofBits .f32 0xBF800000#32 = Ideal.ofBits .f32 0xBE800000#32
    exact neg7

end Cert.KernelIdeal.HandVal

end
-- ==== Proof.Val0Pay.lean ====
/-
  The block the dequantization body stores, read at an entry.

  Entry `q` of row `p` of the stored block is the codebook value of a code times a scale: the code is the high nibble
  of word `q / 2` of the row when `q` is even and its low nibble when `q` is odd, and the scale is the row's scale
  `q / 64`. The stages: the scale block is spread so that word `j` meets scale `j / 32`; each nibble is decoded by the
  nested selects (the scalar decoding and its value are in the module of the code-to-value map); the two decoded
  arrays, each times the spread scales, are interleaved entry by entry by a reshape to a trailing unit axis, a
  concatenation along it and a reshape back, which in row-major order puts the first array at the even entries and the
  second at the odd ones.
-/
import proofs.«409063_j22093311771209_3_alg».proof.Proof.KI.Pay
import proofs.«409063_j22093311771209_3_alg».proof.Proof.Spec
import proofs.«409063_j22093311771209_3_alg».proof.Proof.Val0Lut
import Idealize.ShloMosaic.Lib.Pipeline.Value
import Idealize.ShloMosaic.Lib.ValueIdx

noncomputable section

namespace Cert.KernelIdeal.HandVal

open Idealize.ShloMosaic Idealize.ShloMosaic.ValueIdx Cert.KernelIdeal Cert.KernelIdeal.Gen

/-- The scale block spread over the words: word `j` of a row reads the row's scale `j / 32`. -/
theorem pay5_apply (x1 : Vec Ideal S256x64 .f32) (p : Fin 256) (j : Fin 2048) :
    k0_pay5 (F := Ideal) x1 (ix2 p j) = x1 (ix2 p ⟨j.val / 32, by have := j.isLt; omega⟩) := by
  have hj := j.isLt
  unfold k0_pay5
  refine (shapeCast_apply _ _ (ix2 p j)
    (ix3 p (⟨j.val / 32, by omega⟩ : Fin 64) (⟨j.val % 32, Nat.mod_lt _ (by decide)⟩ : Fin 32)) ?_).trans ?_
  · rw [Shape.rowMajor_val_three, Shape.rowMajor_val_two]
    show (p.val * 64 + j.val / 32) * 32 + j.val % 32 = p.val * 2048 + j.val
    omega
  refine (broadcastTo_apply _ _ _ (ix3 p (⟨j.val / 32, by omega⟩ : Fin 64) (0 : Fin 1)) ?_).trans ?_
  · intro a
    match a with
    | ⟨0, _⟩ => rfl
    | ⟨1, _⟩ => rfl
    | ⟨2, _⟩ => rfl
  rw [shapeCast_self]
  refine (shapeCast_apply _ _ _ (ix2 p (⟨j.val / 32, by omega⟩ : Fin 64)) ?_).trans ?_
  · rw [Shape.rowMajor_val_three, Shape.rowMajor_val_two]
    show p.val * 64 + j.val / 32 = (p.val * 64 + j.val / 32) * 1 + 0
    omega
  rw [shapeCast_self]

/-- The last stage at an EVEN entry `q` of a row: the first array's entry `q / 2`. -/
theorem pay1_even (sc : FVec Ideal S256x2048 .f32) (hi : FVec Ideal S256x2048 .bf16) (lo : FVec Ideal S256x2048 .f32)
    (p : Fin 256) (q : Fin 4096) (hq : q.val % 2 = 0) :
    k0_pay1 (F := Ideal) sc hi lo (ix2 p q) = hi (ix2 p ⟨q.val / 2, by have := q.isLt; omega⟩) := by
  have hql := q.isLt
  unfold k0_pay1
  refine (shapeCast_apply _ _ (ix2 p q)
    (ix3 p (⟨q.val / 2, by omega⟩ : Fin 2048) (⟨0, by decide⟩ : Fin 2)) ?_).trans ?_
  · rw [Shape.rowMajor_val_three, Shape.rowMajor_val_two]
    show (p.val * 2048 + q.val / 2) * 2 + 0 = p.val * 4096 + q.val
    omega
  refine (concatenate_pair_apply_left (t := S256x2048x2) (s₁ := S256x2048x1) (s₂ := S256x2048x1) _ _ _ _ _ rfl
    (ix3 p (⟨q.val / 2, by omega⟩ : Fin 2048) (0 : Fin 1)) ?_).trans ?_
  · intro b
    match b with
    | ⟨0, _⟩ => rfl
    | ⟨1, _⟩ => rfl
    | ⟨2, _⟩ => rfl
  refine (shapeCast_apply _ _ _ (ix2 p (⟨q.val / 2, by omega⟩ : Fin 2048)) ?_).trans ?_
  · rw [Shape.rowMajor_val_three, Shape.rowMajor_val_two]
    show p.val * 2048 + q.val / 2 = (p.val * 2048 + q.val / 2) * 1 + 0
    omega
  rfl

/-- The last stage at an ODD entry `q` of a row: the second array's entry `q / 2`, times the scale there. -/
theorem pay1_odd (sc : FVec Ideal S256x2048 .f32) (hi : FVec Ideal S256x2048 .bf16) (lo : FVec Ideal S256x2048 .f32)
    (p : Fin 256) (q : Fin 4096) (hq : q.val % 2 = 1) :
    k0_pay1 (F := Ideal) sc hi lo (ix2 p q)
      = lo (ix2 p ⟨q.val / 2, by have := q.isLt; omega⟩) * sc (ix2 p ⟨q.val / 2, by have := q.isLt; omega⟩) := by
  have hql := q.isLt
  unfold k0_pay1
  refine (shapeCast_apply _ _ (ix2 p q)
    (ix3 p (⟨q.val / 2, by omega⟩ : Fin 2048) (⟨1, by decide⟩ : Fin 2)) ?_).trans ?_
  · rw [Shape.rowMajor_val_three, Shape.rowMajor_val_two]
    show (p.val * 2048 + q.val / 2) * 2 + 1 = p.val * 4096 + q.val
    omega
  refine (concatenate_pair_apply_right (t := S256x2048x2) (s₁ := S256x2048x1) (s₂ := S256x2048x1) _ _ _ _ _ rfl rfl
    (ix3 p (⟨q.val / 2, by omega⟩ : Fin 2048) (0 : Fin 1)) ?_ ?_).trans ?_
  · intro b hb
    match b, hb with
    | ⟨0, _⟩, _ => rfl
    | ⟨1, _⟩, _ => rfl
    | ⟨2, _⟩, hb => exact absurd rfl hb
  · rfl
  refine (shapeCast_apply _ _ _ (ix2 p (⟨q.val / 2, by omega⟩ : Fin 2048)) ?_).trans ?_
  · rw [Shape.rowMajor_val_three, Shape.rowMajor_val_two]
    show p.val * 2048 + q.val / 2 = (p.val * 2048 + q.val / 2) * 1 + 0
    omega
  rfl

/-- The loaded block of words re-cast to its own shape is itself. -/
theorem pay2_apply (x0 : Vec Ideal S256x2048 .i32) (i : S256x2048.Idx) : k0_pay2 (F := Ideal) x0 i = x0 i := by
  unfold k0_pay2
  rw [shapeCast_self]

/-- The high-nibble array at word `j` of a row: the decoding of the word's high nibble, times the scale met there. -/
theorem hi_apply (x0 : Vec Ideal S256x2048 .i32) (sc : FVec Ideal S256x2048 .f32) (p : Fin 256) (j : Fin 2048) :
    k0_pay13 (F := Ideal) sc (k0_pay6 x0) (k0_pay7 x0) (k0_pay8 x0) (k0_pay9 x0) (k0_pay10 x0) (k0_pay11 x0)
        (k0_pay12 x0) (ix2 p j)
      = lut (Cert.Spec.hiNib (x0 (ix2 p j))) * sc (ix2 p j) := by
  rw [← pay2_apply x0 (ix2 p j)]
  rfl

/-- The low-nibble array at word `j` of a row: the decoding of the word's low nibble. -/
theorem lo_apply (x0 : Vec Ideal S256x2048 .i32) (p : Fin 256) (j : Fin 2048) :
    k0_pay18 (F := Ideal) (k0_pay14 (k0_pay4 x0)) (k0_pay15 (k0_pay4 x0)) (k0_pay16 (k0_pay4 x0))
        (k0_pay17 (k0_pay4 x0)) (ix2 p j)
      = lut (Cert.Spec.loNib (x0 (ix2 p j))) := by
  rw [← pay2_apply x0 (ix2 p j)]
  rfl

/-- A high nibble is a code. -/
theorem hiNib_lt (w : BitVec 32) : (Cert.Spec.hiNib w).toNat < 16 := by
  unfold Cert.Spec.hiNib
  rw [BitVec.toNat_and]
  exact Nat.lt_of_le_of_lt Nat.and_le_right (by decide)

/-- A low nibble is a code. -/
theorem loNib_lt (w : BitVec 32) : (Cert.Spec.loNib w).toNat < 16 := by
  unfold Cert.Spec.loNib
  rw [BitVec.toNat_and]
  exact Nat.lt_of_le_of_lt Nat.and_le_right (by decide)

/-- The stored block at entry `q` of row `p`: the codebook value of the entry's code, times the scale of the entry's
    group of 64. -/
theorem blk0_apply (x0 : Vec Ideal S256x2048 .i32) (x1 : Vec Ideal S256x64 .f32) (p : Fin 256) (q : Fin 4096) :
    Cert.KernelIdeal.Hand.blk0 (F := Ideal) x0 x1 (ix2 p q)
      = Cert.Spec.cb (Cert.Spec.nib (x0 (ix2 p ⟨q.val / 2, by have := q.isLt; omega⟩)) q.val)
          * x1 (ix2 p ⟨q.val / 64, by have := q.isLt; omega⟩) := by
  have hql := q.isLt
  have hsc : k0_pay5 (F := Ideal) x1 (ix2 p (⟨q.val / 2, by omega⟩ : Fin 2048))
      = x1 (ix2 p ⟨q.val / 64, by omega⟩) := by
    rw [pay5_apply]
    exact congrArg (fun c : Fin 64 => x1 (ix2 p c)) (Fin.ext (by show q.val / 2 / 32 = q.val / 64; omega))
  unfold Cert.KernelIdeal.Hand.blk0 Cert.Spec.nib
  by_cases hq : q.val % 2 = 0
  · rw [pay1_even _ _ _ p q hq, hi_apply, hsc, if_pos hq, lut_eq _ (hiNib_lt _)]
  · have hq1 : q.val % 2 = 1 := by omega
    rw [pay1_odd _ _ _ p q hq1, lo_apply, hsc, if_neg hq, lut_eq _ (loNib_lt _)]

end Cert.KernelIdeal.HandVal

end
-- ==== Proof.Val0.lean ====
/-
  The dequantization pallas_call's output array after its last grid point, entry by entry.

  Grid point `t` handles rows `256 t .. 256 t + 255`: it reads those rows of the packed words and of the scales whole
  and writes those rows of the output whole. The block it writes is, entry by entry, the codebook value of the
  entry's code times the scale of the entry's group of 64, so it is block `t` of the dequantized weight matrix of the
  two input arrays. The sixteen blocks tile the output (row `o` lies in the block of point `o / 256`), hence after the
  last point the output array is the dequantized weight matrix.
-/
import proofs.«409063_j22093311771209_3_alg».proof.Proof.KI.R0
import proofs.«409063_j22093311771209_3_alg».proof.Proof.Val0Pay
import proofs.«409063_j22093311771209_3_alg».proof.Proof.Spec
import Idealize.ShloMosaic.Lib.Pipeline.Value
import Idealize.ShloMosaic.Lib.ValueIdx

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The dequantized weight matrix of the two input arrays as the region finds them, as contents of the output
    array. -/
def W0 (c : Dev nD) : S4096x4096.Idx → EReal := fun i =>
  Cert.Spec.weight (fun o j => V c main_v0 (ix2 o j)) (fun o j => V c main_v1 (ix2 o j)) (i 0) (i 1)

theorem zero_off : (![0, 0] : Fin 2 → Nat) = fun _ => 0 := funext fun a => by fin_cases a <;> rfl

/-- The grid has sixteen points. -/
theorem lt16 (t : Fin cfg0.N) : t.val < 16 := lt_of_lt_of_eq t.isLt N_0

/-- The printed index maps, decided over the grid: every window's block at point `t` is block `t` along the rows
    and block 0 along the columns. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The packed words' block at point `t`, read at row `p`, word `j`: the array's row `256 t + p`, word `j`. -/
theorem iblk0_0_apply (c : Dev nD) (t : Fin cfg0.N) (p : Fin 256) (j : Fin 2048) :
    iblk0 V c 0 t (ix2 p j)
      = V c main_v0 (ix2 (⟨t.val * 256 + p.val, by have := lt16 t; have := p.isLt; omega⟩ : Fin 4096) j) := by
  obtain ⟨e0, e1, -, -, -, -⟩ := idx_facts t
  show V c main_v0 (((cfg0.win 0).blk t).view.emb (ix2 p j)) = _
  refine congrArg (V c main_v0) (funext fun a => Fin.ext ?_)
  match a with
  | ⟨0, _⟩ => show win0_0.index t (0 : Fin 2) * 256 + 1 * p.val = t.val * 256 + p.val; omega
  | ⟨1, _⟩ => show win0_0.index t (1 : Fin 2) * 2048 + 1 * j.val = j.val; omega

/-- The scales' block at point `t`, read at row `p`, scale `j`: the array's row `256 t + p`, scale `j`. -/
theorem iblk0_1_apply (c : Dev nD) (t : Fin cfg0.N) (p : Fin 256) (j : Fin 64) :
    iblk0 V c 1 t (ix2 p j)
      = V c main_v1 (ix2 (⟨t.val * 256 + p.val, by have := lt16 t; have := p.isLt; omega⟩ : Fin 4096) j) := by
  obtain ⟨-, -, e0, e1, -, -⟩ := idx_facts t
  show V c main_v1 (((cfg0.win 1).blk t).view.emb (ix2 p j)) = _
  refine congrArg (V c main_v1) (funext fun a => Fin.ext ?_)
  match a with
  | ⟨0, _⟩ => show win0_1.index t (0 : Fin 2) * 256 + 1 * p.val = t.val * 256 + p.val; omega
  | ⟨1, _⟩ => show win0_1.index t (1 : Fin 2) * 64 + 1 * j.val = j.val; omega

/-- The output's block at point `t`: entry `(p, q)` of the block is entry `(256 t + p, q)` of the array. -/
theorem emb2_eq (t : Fin cfg0.N) (p : Fin 256) (q : Fin 4096) :
    ((cfg0.win 2).blk t).view.emb (ix2 p q)
      = ix2 (⟨t.val * 256 + p.val, by have := lt16 t; have := p.isLt; omega⟩ : Fin 4096) q := by
  obtain ⟨-, -, -, -, e0, e1⟩ := idx_facts t
  refine funext fun a => Fin.ext ?_
  match a with
  | ⟨0, _⟩ => show win0_2.index t (0 : Fin 2) * 256 + 1 * p.val = t.val * 256 + p.val; omega
  | ⟨1, _⟩ => show win0_2.index t (1 : Fin 2) * 4096 + 1 * q.val = q.val; omega

/-- An index of the output array is in point `t`'s block iff each coordinate is in the block's range on its axis. -/
theorem mem_blk (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v2).slice (win0_2.rect t)).set ↔ _
  rw [View.set_slice_whole, Rect.mem_set_unit]
  exact Iff.rfl

/-- Every entry of the output array is in some point's block: row `o` is in the block of point `o / 256`. -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  let t : Fin cfg0.N := ⟨(i 0).val / 256, lt_of_lt_of_eq (show (i 0).val / 256 < 16 by omega) N_0.symm⟩
  obtain ⟨-, -, -, -, e0, e1⟩ := idx_facts t
  have ht : t.val = (i 0).val / 256 := rfl
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- What point `t` writes back is block `t` of the dequantized weight matrix. -/
theorem flushed_eq (c : Dev nD) (t : Fin cfg0.N) :
    (dat0 (F := Ideal) V c).flushed 2 t = ((cfg0.win 2).blk t).view.read (Elt Ideal) (W0 V c) := by
  show (cfg0.win 2).cut (grid0.coords t) ((dat0 (F := Ideal) V c).after 2 t) = _
  rw [after0_2]
  unfold out0_2
  rw [View.canon_unit_zero zero_off]
  simp only [View.ld_unit_zero (S := S256x2048) zero_off, View.ld_unit_zero (S := S256x64) zero_off]
  funext j
  obtain ⟨p, q, rfl⟩ : ∃ (p : Fin 256) (q : Fin 4096), j = ix2 p q := ⟨j 0, j 1, eq_ix2 j⟩
  show Cert.KernelIdeal.Hand.blk0 (F := Ideal) (iblk0 V c 0 t) (iblk0 V c 1 t) (ix2 p q)
    = W0 V c (((cfg0.win 2).blk t).view.emb (ix2 p q))
  rw [blk0_apply, iblk0_0_apply, iblk0_1_apply, emb2_eq]
  rfl

/-- After the last grid point the output array is the dequantized weight matrix. -/
theorem final (c : Dev nD) : (dat0 (F := Ideal) V c).arrAt 2 cfg0.N = W0 V c :=
  (dat0 (F := Ideal) V c).arrAt_eq_of_cover 2 (W0 V c) (fun t _ => flushed_eq V c t) cover

/-- The output array after the last grid point, at row `o`, entry `e`. -/
theorem arr0_apply (c : Dev nD) (o e : Fin 4096) :
    (dat0 (F := Ideal) V c).arrAt 2 cfg0.N (ix2 o e)
      = Cert.Spec.weight (fun o j => V c main_v0 (ix2 o j)) (fun o j => V c main_v1 (ix2 o j)) o e := by
  rw [final]
  rfl

end Cert.KernelIdeal.HandVal

end
-- ==== Proof.KIValue.lean ====
/-
  The value the program returns, entry by entry.

  The buffers' contents at the program's boundaries form a fold from the launch memory: reshapes, the dequantization
  region, reshapes, the matrix-product region, a reshape. Read backwards from the result: batch `bb`, position `s` of
  the result is row `2048 bb + s` of the second region's output; that output is the linear map of the region's three
  input arrays; the activations' rows are the reshaped first argument; the bias row is the reshaped fourth argument;
  the weight array is the first region's output, which the second stretch of host operations does not write, and
  which is the dequantized weight matrix of the reshaped second and third arguments. Re-indexing the reshapes
  row-major gives the specification's result.
-/
import proofs.«409063_j22093311771209_3_alg».proof.Proof.KI.Run
import proofs.«409063_j22093311771209_3_alg».proof.Proof.KIHost
import proofs.«409063_j22093311771209_3_alg».proof.Proof.Val0
import proofs.«409063_j22093311771209_3_alg».proof.Proof.Spec

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem

/-- The linear map over arrays that are, entry by entry, the re-indexed arguments is the result. -/
theorem result_of_linear (x : Fin 4 → Fin 2048 → Fin 4096 → EReal) (wp : Fin 8388608 → BitVec 32)
    (sc : Fin 262144 → EReal) (b : Fin 4096 → EReal)
    (X : Fin 8192 → Fin 4096 → EReal) (Wt : Fin 4096 → Fin 4096 → EReal) (B : Fin 4096 → EReal)
    (hX : ∀ r i, X r i = x ⟨r.val / 2048, by have := r.isLt; omega⟩ ⟨r.val % 2048, Nat.mod_lt _ (by decide)⟩ i)
    (hW : ∀ o i, Wt o i = Cert.Spec.weight
      (fun o j => wp ⟨o.val * 2048 + j.val, by have := o.isLt; have := j.isLt; omega⟩)
      (fun o j => sc ⟨o.val * 64 + j.val, by have := o.isLt; have := j.isLt; omega⟩) o i)
    (hB : ∀ o, B o = b o) (bb : Fin 4) (s : Fin 2048) (o : Fin 4096) :
    Cert.Spec.linear X Wt B ⟨bb.val * 2048 + s.val, by have := bb.isLt; have := s.isLt; omega⟩ o
      = Cert.Spec.result x wp sc b bb s o := by
  rw [Cert.Spec.result_eq]
  have e1 : X = fun r i => x ⟨r.val / 2048, by have := r.isLt; omega⟩ ⟨r.val % 2048, Nat.mod_lt _ (by decide)⟩ i :=
    funext fun r => funext fun i => hX r i
  have e2 : Wt = Cert.Spec.weight
      (fun o j => wp ⟨o.val * 2048 + j.val, by have := o.isLt; have := j.isLt; omega⟩)
      (fun o j => sc ⟨o.val * 64 + j.val, by have := o.isLt; have := j.isLt; omega⟩) :=
    funext fun o => funext fun i => hW o i
  have e3 : B = b := funext hB
  rw [e1, e2, e3]

variable (m : (ℓ : Loc nD τ sig) → Buf (Elt Ideal) ℓ) (ρ : Dev nD → PrngReg)

/-! ## Buffers that reach a boundary as launched -/

/-- The first stretch writes no argument: each enters the first region as launched. -/
theorem W1_arg (c : Dev nD) (r : Ref sig .tc) (h0 : r ∉ ([main_v0, main_v1] : List (Ref sig .tc))) :
    W1 (F := Ideal) m ρ c (Proc.devRef .tc r) = m ((c : Thread nD τ).loc r) :=
  (StableHlo.after_of_writes_sub hostOps0 _ hostOps0_writes h0).trans rfl

/-- A buffer the first stretch does not write and that is no array of the first region leaves that region as
    launched. -/
theorem W2_arg (c : Dev nD) (r : Ref sig .tc) (h0 : r ∉ ([main_v0, main_v1] : List (Ref sig .tc)))
    (ha0 : ∀ w, Pipeline.arrRef spec0 w ≠ r) :
    W2 (F := Ideal) m ρ c (Proc.devRef .tc r) = m ((c : Thread nD τ).loc r) :=
  (W2_of_ne m ρ c r ha0).trans (W1_arg m ρ c r h0)

/-! ## The first region's input arrays -/

/-- Word `j` of row `o` of the packed words' array is flat word `2048 o + j` of the second argument. -/
theorem V1_v0_apply (c : Dev nD) (o : Fin 4096) (j : Fin 2048) :
    V1 (F := Ideal) m ρ c main_v0 (ix2 o j)
      = m ((c : Thread nD τ).loc main_arg1)
          (ix1 (⟨o.val * 2048 + j.val, by have := o.isLt; have := j.isLt; omega⟩ : Fin 8388608)) :=
  host0_v0_apply (Hand.W0 m ρ c) o j

/-- Scale `j` of row `o` of the scales' array is flat scale `64 o + j` of the third argument. -/
theorem V1_v1_apply (c : Dev nD) (o : Fin 4096) (j : Fin 64) :
    V1 (F := Ideal) m ρ c main_v1 (ix2 o j)
      = m ((c : Thread nD τ).loc main_arg2)
          (ix1 (⟨o.val * 64 + j.val, by have := o.isLt; have := j.isLt; omega⟩ : Fin 262144)) :=
  host0_v1_apply (Hand.W0 m ρ c) o j

/-! ## The second region's input arrays -/

/-- Row `r` of the activations' array is batch `r / 2048`, position `r % 2048` of the first argument. -/
theorem V3_v3_apply (c : Dev nD) (r : Fin 8192) (i : Fin 4096) :
    V3 (F := Ideal) m ρ c main_v3 (ix2 r i)
      = m ((c : Thread nD τ).loc main_arg0)
          (ix3 (⟨r.val / 2048, by have := r.isLt; omega⟩ : Fin 4) (⟨r.val % 2048, Nat.mod_lt _ (by decide)⟩ : Fin 2048) i) :=
  (host1_v3_apply (W2 m ρ c) r i).trans
    (congrFun (W2_arg m ρ c main_arg0 (by decide) (by decide)) _)

/-- The bias row is the fourth argument. -/
theorem V3_v4_apply (c : Dev nD) (u : Fin 1) (o : Fin 4096) :
    V3 (F := Ideal) m ρ c main_v4 (ix2 u o) = m ((c : Thread nD τ).loc main_arg3) (ix1 o) :=
  (host1_v4_apply (W2 m ρ c) u o).trans
    (congrFun (W2_arg m ρ c main_arg3 (by decide) (by decide)) _)

/-- The weight array the second region reads is what the first region left. -/
theorem V3_v2 (c : Dev nD) : V3 (F := Ideal) m ρ c main_v2 = (dat0 (F := Ideal) (V1 m ρ) c).arrAt 2 cfg0.N :=
  (StableHlo.after_of_writes_sub hostOps1 _ hostOps1_writes (by decide)).trans (W2_arr m ρ c 2)

/-- The weight array the second region reads is the dequantized weight matrix of the flat second and third
    arguments. -/
theorem V3_v2_apply (c : Dev nD) (o i : Fin 4096) :
    V3 (F := Ideal) m ρ c main_v2 (ix2 o i)
      = Cert.Spec.weight
          (fun o j => m ((c : Thread nD τ).loc main_arg1)
            (ix1 (⟨o.val * 2048 + j.val, by have := o.isLt; have := j.isLt; omega⟩ : Fin 8388608)))
          (fun o j => m ((c : Thread nD τ).loc main_arg2)
            (ix1 (⟨o.val * 64 + j.val, by have := o.isLt; have := j.isLt; omega⟩ : Fin 262144))) o i := by
  rw [V3_v2, arr0_apply]
  have eP : (fun (o : Fin 4096) (j : Fin 2048) => V1 (F := Ideal) m ρ c main_v0 (ix2 o j))
      = fun o j => m ((c : Thread nD τ).loc main_arg1)
          (ix1 (⟨o.val * 2048 + j.val, by have := o.isLt; have := j.isLt; omega⟩ : Fin 8388608)) :=
    funext fun o => funext fun j => V1_v0_apply m ρ c o j
  have eS : (fun (o : Fin 4096) (j : Fin 64) => V1 (F := Ideal) m ρ c main_v1 (ix2 o j))
      = fun o j => m ((c : Thread nD τ).loc main_arg2)
          (ix1 (⟨o.val * 64 + j.val, by have := o.isLt; have := j.isLt; omega⟩ : Fin 262144)) :=
    funext fun o => funext fun j => V1_v1_apply m ρ c o j
  rw [eP, eS]

/-! ## The result -/

/-- What the second region leaves in its output array, as a hypothesis of the result's value: the linear map of
    the region's three input arrays as it finds them. -/
def Arr1Linear : Prop :=
  ∀ (V : (c : Dev nD) → (b : Ref sig .tc) → Buf (Elt Ideal) ((c : Thread nD τ).loc b)) (c : Dev nD)
    (r : Fin 8192) (o : Fin 4096),
    (dat1 (F := Ideal) V c).arrAt 3 cfg1.N (ix2 r o)
      = Cert.Spec.linear (fun r i => V c main_v3 (ix2 r i)) (fun o i => V c main_v2 (ix2 o i))
          (fun o => V c main_v4 (ix2 (0 : Fin 1) o)) r o

/-- The result's array at batch `bb`, position `s`, output `o`: the specification's result of the four arguments as
    launched, given the second region's array value. -/
theorem kout_apply_of (h1 : Arr1Linear) (c : Dev nD) (bb : Fin 4) (s : Fin 2048) (o : Fin 4096) :
    W5 (F := Ideal) m ρ c (Proc.devRef .tc main_v6) (ix3 bb s o)
      = Cert.Spec.result (fun bb s i => m ((c : Thread nD τ).loc main_arg0) (ix3 bb s i))
          (fun n => m ((c : Thread nD τ).loc main_arg1) (ix1 n))
          (fun n => m ((c : Thread nD τ).loc main_arg2) (ix1 n))
          (fun o => m ((c : Thread nD τ).loc main_arg3) (ix1 o)) bb s o := by
  refine (host2_v6_apply (W4 m ρ c) bb s o).trans ?_
  refine (congrFun (W4_arr m ρ c 3) _).trans ?_
  refine (h1 (V3 m ρ) c _ o).trans ?_
  exact result_of_linear
    (fun bb s i => m ((c : Thread nD τ).loc main_arg0) (ix3 bb s i))
    (fun n => m ((c : Thread nD τ).loc main_arg1) (ix1 n))
    (fun n => m ((c : Thread nD τ).loc main_arg2) (ix1 n))
    (fun o => m ((c : Thread nD τ).loc main_arg3) (ix1 o))
    (fun r i => V3 (F := Ideal) m ρ c main_v3 (ix2 r i))
    (fun o i => V3 (F := Ideal) m ρ c main_v2 (ix2 o i))
    (fun o => V3 (F := Ideal) m ρ c main_v4 (ix2 (0 : Fin 1) o))
    (fun r i => V3_v3_apply m ρ c r i) (fun o i => V3_v2_apply m ρ c o i)
    (fun o => V3_v4_apply m ρ c 0 o) bb s o

end Cert.KernelIdeal.HandVal

end
-- ==== Proof.Val1Piece.lean ====
/-
  What each control case of the matrix-product body leaves in the accumulator and in the output's staging buffer,
  as the payloads of the loaded blocks.

  At k = 0 the accumulator is first set to the zero block and then updated, so it ends at the update of the zero
  block; at every other point it ends at the update of what the point before left; at k = 7 the output's buffer
  ends at the bias added to the updated accumulator.
-/
import proofs.«409063_j22093311771209_3_alg».proof.Proof.KI.R1
import Idealize.ShloMosaic.Lib.Pipeline.Value
import Idealize.ShloMosaic.Lib.Tactic

set_option maxRecDepth 16384

noncomputable section

namespace Cert.KernelIdeal.HandVal1

open Idealize.ShloMosaic Idealize.ShloMosaic.TcCoe Idealize.ShloMosaic.Tactic Idealize.SL.Sem
open Cert.KernelIdeal Cert.KernelIdeal.Gen Cert.KernelIdeal.Hand

variable {F : FTy → Type} [FloatOps F]

/-- The zero offsets of a whole-buffer access. -/
theorem hz : (![0, 0] : Fin 2 → Nat) = fun _ => 0 := funext fun a => by fin_cases a <;> rfl

/-- At k = 0 the accumulator ends at the update of the zero block. -/
theorem sout_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) :
    sout1_A_0 c i arg3 harg3 arg4 harg4 arg5 harg5 arg6 harg6 arg7 harg7 hc0 hc1 x0 x1 x2 = k1_pay2 x0 x1 k1_pay1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x2048) hz, View.readCov_unit_zero (S := S1024x2048) _ hz]
  simp only [View.readAt_eq_ld, harg3.read_unread, harg4.read_unread, View.ld_unit_zero (S := S1024x512) hz,
    View.ld_unit_zero (S := S2048x512) hz]

/-- At 0 < k < 7 the accumulator ends at the update of what the point before left. -/
theorem sout_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) :
    sout1_B_0 c i arg3 harg3 arg4 harg4 arg5 harg5 arg6 harg6 arg7 harg7 hc0 hc1 x0 x1 x2 xs0 = k1_pay2 x0 x1 xs0 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero hz]
  simp only [View.readAt_eq_ld, harg3.read_unread, harg4.read_unread, harg7.read_unread,
    View.ld_unit_zero (S := S1024x512) hz, View.ld_unit_zero (S := S2048x512) hz, View.ld_unit_zero (S := S1024x2048) hz]

/-- At k = 7 the accumulator ends at the update of what the point before left, -/
theorem sout_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) :
    sout1_C_0 c i arg3 harg3 arg4 harg4 arg5 harg5 arg6 harg6 arg7 harg7 hc0 hc1 x0 x1 x2 xs0 = k1_pay2 x0 x1 xs0 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero hz]
  simp only [View.readAt_eq_ld, harg3.read_unread, harg4.read_unread, harg7.read_unread,
    View.ld_unit_zero (S := S1024x512) hz, View.ld_unit_zero (S := S2048x512) hz, View.ld_unit_zero (S := S1024x2048) hz]

/-- and the output's buffer at the bias added to that. -/
theorem out_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) :
    out1_C_3 c i arg3 harg3 arg4 harg4 arg5 harg5 arg6 harg6 arg7 harg7 hc0 hc1 x0 x1 x2 xs0 = k1_pay3 x2 (k1_pay2 x0 x1 xs0) := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz, View.readCov_unit_zero (S := S1024x2048) _ hz]
  simp only [View.readAt_eq_ld, harg3.read_unread, harg4.read_unread, harg5.read_unread, harg7.read_unread,
    View.ld_unit_zero (S := S1024x512) hz, View.ld_unit_zero (S := S2048x512) hz, View.ld_unit_zero (S := S1x2048) hz,
    View.ld_unit_zero (S := S1024x2048) hz]

end Cert.KernelIdeal.HandVal1

end
-- ==== Proof.Val1Blk.lean ====
/-
  The matrix-product region's blocks, read off the arrays the region finds.

  Grid point `t` of the 8 x 2 x 8 grid has the coordinates `i = t / 16`, `j = (t / 8) % 2`, `k = t % 8`. The
  activations' block at `t` is rows `i * 1024 ..`, columns `k * 512 ..` of the 8192 x 4096 array; the weight's block
  is rows `j * 2048 ..`, columns `k * 512 ..` of the 4096 x 4096 array; the bias's block is columns `j * 2048 ..` of
  the one row; the output's block is rows `i * 1024 ..`, columns `j * 2048 ..`. The output's blocks at the points
  with `k = 7` tile the output array.
-/
import proofs.«409063_j22093311771209_3_alg».proof.Proof.KI.R1Runs
import Idealize.ShloMosaic.Lib.ValueIdx
import Idealize.ShloMosaic.Lib.Pipeline.Value

noncomputable section

namespace Cert.KernelIdeal.HandVal1

open Idealize.ShloMosaic Idealize.ShloMosaic.TcCoe Idealize.ShloMosaic.ValueIdx Idealize.SL.Sem
open Cert.KernelIdeal Cert.KernelIdeal.Gen Cert.KernelIdeal.Hand

variable {F : FTy → Type} [FloatOps F]
variable (V : (c : Dev nD) → (b : Ref sig .tc) → Buf (Elt F) ((c : Thread nD τ).loc b))

/-! ## The blocks and the arrays, at their literal types -/

/-- The activations' block at point `t`. -/
abbrev xblk (c : Dev nD) (t : Fin cfg1.N) : Vec F S1024x512 .f32 := iblk1 V c 0 t
/-- The weight's block at point `t`. -/
abbrev wblk (c : Dev nD) (t : Fin cfg1.N) : Vec F S2048x512 .bf16 := iblk1 V c 1 t
/-- The bias's block at point `t`. -/
abbrev bblk (c : Dev nD) (t : Fin cfg1.N) : Vec F S1x2048 .f32 := iblk1 V c 2 t
/-- The activations, 8192 rows of 4096. -/
abbrev xarr (c : Dev nD) : Vec F S8192x4096 .f32 := V c main_v3
/-- The weight, 4096 rows of 4096. -/
abbrev warr (c : Dev nD) : Vec F S4096x4096 .bf16 := V c main_v2
/-- The bias, one row of 4096. -/
abbrev barr (c : Dev nD) : Vec F S1x4096 .f32 := V c main_v4

/-! ## The block indices, decided over the grid -/

/-- Each window's block index at point `t`, from the point's number. -/
theorem idx_facts : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = 0 ∧ win1_2.index t (1 : Fin 2) = t.val / 8 % 2
    ∧ win1_3.index t (0 : Fin 2) = t.val / 16 ∧ win1_3.index t (1 : Fin 2) = t.val / 8 % 2 :=
  (by decide +kernel : ∀ t : Fin grid1.N, _)

/-- The grid has 128 points. -/
theorem N_1 : cfg1.N = 128 := by decide

/-! ## The blocks' entries are the arrays' entries -/

/-- The activations' block: rows from `(t / 16) * 1024`, columns from `(t % 8) * 512`. -/
theorem xblk_apply (c : Dev nD) (t : Fin cfg1.N) (p : Fin 1024) (k : Fin 512) (r : Fin 8192) (e : Fin 4096)
    (hr : r.val = t.val / 16 * 1024 + p.val) (he : e.val = t.val % 8 * 512 + k.val) :
    xblk V c t (ix2 p k) = xarr V c (ix2 r e) := by
  obtain ⟨e0, e1, -⟩ := idx_facts t
  show (V c main_v3 : Vec F S8192x4096 .f32) (((cfg1.win 0).blk t).view.emb (ix2 p k)) = _
  refine congrArg (V c main_v3 : Vec F S8192x4096 .f32) (funext fun a => Fin.ext ?_)
  match a with
  | ⟨0, _⟩ => show win1_0.index t (0 : Fin 2) * 1024 + 1 * p.val = r.val; omega
  | ⟨1, _⟩ => show win1_0.index t (1 : Fin 2) * 512 + 1 * k.val = e.val; omega

/-- The weight's block: rows from `(t / 8 % 2) * 2048`, columns from `(t % 8) * 512`. -/
theorem wblk_apply (c : Dev nD) (t : Fin cfg1.N) (q : Fin 2048) (k : Fin 512) (o : Fin 4096) (e : Fin 4096)
    (ho : o.val = t.val / 8 % 2 * 2048 + q.val) (he : e.val = t.val % 8 * 512 + k.val) :
    wblk V c t (ix2 q k) = warr V c (ix2 o e) := by
  obtain ⟨-, -, e2, e3, -⟩ := idx_facts t
  show (V c main_v2 : Vec F S4096x4096 .bf16) (((cfg1.win 1).blk t).view.emb (ix2 q k)) = _
  refine congrArg (V c main_v2 : Vec F S4096x4096 .bf16) (funext fun a => Fin.ext ?_)
  match a with
  | ⟨0, _⟩ => show win1_1.index t (0 : Fin 2) * 2048 + 1 * q.val = o.val; omega
  | ⟨1, _⟩ => show win1_1.index t (1 : Fin 2) * 512 + 1 * k.val = e.val; omega

/-- The bias's block: columns from `(t / 8 % 2) * 2048` of the one row. -/
theorem bblk_apply (c : Dev nD) (t : Fin cfg1.N) (q : Fin 2048) (o : Fin 4096)
    (ho : o.val = t.val / 8 % 2 * 2048 + q.val) :
    bblk V c t (ix2 (0 : Fin 1) q) = barr V c (ix2 (0 : Fin 1) o) := by
  obtain ⟨-, -, -, -, e4, e5, -⟩ := idx_facts t
  show (V c main_v4 : Vec F S1x4096 .f32) (((cfg1.win 2).blk t).view.emb (ix2 (0 : Fin 1) q)) = _
  refine congrArg (V c main_v4 : Vec F S1x4096 .f32) (funext fun a => Fin.ext ?_)
  match a with
  | ⟨0, _⟩ => show win1_2.index t (0 : Fin 2) * 1 + 1 * 0 = 0; omega
  | ⟨1, _⟩ => show win1_2.index t (1 : Fin 2) * 2048 + 1 * q.val = o.val; omega

/-! ## The output's blocks tile the output array -/

/-- An entry of the output array is in point `t`'s block iff each coordinate is in the block's range. -/
theorem mem_oblk (t : Fin cfg1.N) (i : S8192x4096.Idx) :
    i ∈ ((cfg1.win 3).blk t).view.set ↔ ∀ a : Fin 2, win1_3.index t a * S1024x2048.size a ≤ (i a).val
      ∧ (i a).val < win1_3.index t a * S1024x2048.size a + S1024x2048.size a := by
  show i ∈ ((View.whole main_v5).slice (win1_3.rect t)).set ↔ _
  rw [View.set_slice_whole, Rect.mem_set_unit]
  exact Iff.rfl

/-- Every entry of the output array is in the block of a point that writes its block back. -/
theorem ocover (i : S8192x4096.Idx) :
    ∃ t : Fin cfg1.N, (cfg1.win 3).flush t = true ∧ i ∈ ((cfg1.win 3).blk t).view.set := by
  have h0 : (i 0).val < 8192 := (i 0).isLt
  have h1 : (i 1).val < 4096 := (i 1).isLt
  have hN : cfg1.N = 128 := N_1
  refine ⟨⟨(i 0).val / 1024 * 16 + (i 1).val / 2048 * 8 + 7, by omega⟩, (flush1_3 _).mpr (by dsimp only; omega), ?_⟩
  rw [mem_oblk]
  obtain ⟨-, -, -, -, -, -, e6, e7⟩ := idx_facts ⟨(i 0).val / 1024 * 16 + (i 1).val / 2048 * 8 + 7, by omega⟩
  dsimp only at e6 e7
  intro a
  match a with
  | ⟨0, _⟩ =>
    show win1_3.index _ (0 : Fin 2) * 1024 ≤ (i 0).val ∧ (i 0).val < win1_3.index _ (0 : Fin 2) * 1024 + 1024
    rw [e6]; omega
  | ⟨1, _⟩ =>
    show win1_3.index _ (1 : Fin 2) * 2048 ≤ (i 1).val ∧ (i 1).val < win1_3.index _ (1 : Fin 2) * 2048 + 2048
    rw [e7]; omega

end Cert.KernelIdeal.HandVal1

end
-- ==== Proof.Val1Pay.lean ====
/-
  The three pure payloads of the matrix-product kernel, read at one entry, at the instance where a float is an
  extended real and every operation the exact one.

  At row `p` and column `q` of the 1024 x 2048 block: the first payload is zero; the second is the carried entry
  plus the product of row `p` of the left block with row `q` of the right block (both operands are contracted along
  their second axis, and the narrowing of the left operand is the identity here); the third is the carried entry
  plus the bias row's entry at column `q`.
-/
import proofs.«409063_j22093311771209_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandVal1

open Idealize.ShloMosaic Idealize.ShloMosaic.ValueIdx
open Cert.KernelIdeal Cert.KernelIdeal.Gen

/-! ## The product's operand indices, coordinate by coordinate -/

/-- The left operand's row is the result's row. -/
theorem lhs_mm_0 (i : S1024x2048.Idx) (c : dot_S1024x512_S2048x512_S1024x2048_1_1_0_0_n_n.contr.Idx) :
    (dot_S1024x512_S2048x512_S1024x2048_1_1_0_0_n_n.lhsIdx i c 0).val = (i 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl

/-- The left operand's column is the contraction position. -/
theorem lhs_mm_1 (i : S1024x2048.Idx) (c : dot_S1024x512_S2048x512_S1024x2048_1_1_0_0_n_n.contr.Idx) :
    (dot_S1024x512_S2048x512_S1024x2048_1_1_0_0_n_n.lhsIdx i c 1).val = (c ⟨0, by decide⟩).val :=
  dot_S1024x512_S2048x512_S1024x2048_1_1_0_0_n_n.lhsIdx_val_of_single rfl i c

/-- The right operand's row is the result's column. -/
theorem rhs_mm_0 (i : S1024x2048.Idx) (c : dot_S1024x512_S2048x512_S1024x2048_1_1_0_0_n_n.contr.Idx) :
    (dot_S1024x512_S2048x512_S1024x2048_1_1_0_0_n_n.rhsIdx i c 0).val = (i 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl

/-- The right operand's column is the contraction position. -/
theorem rhs_mm_1 (i : S1024x2048.Idx) (c : dot_S1024x512_S2048x512_S1024x2048_1_1_0_0_n_n.contr.Idx) :
    (dot_S1024x512_S2048x512_S1024x2048_1_1_0_0_n_n.rhsIdx i c 1).val = (c ⟨0, by decide⟩).val :=
  dot_S1024x512_S2048x512_S1024x2048_1_1_0_0_n_n.rhsIdx_val_of_single rfl i c

/-! ## The payloads at an entry -/

/-- The first payload is zero everywhere. -/
theorem pay1_apply (p : Fin 1024) (q : Fin 2048) : k1_pay1 (F := Ideal) (ix2 p q) = 0 := by
  unfold k1_pay1
  rw [shapeCast_self, broadcast_apply]
  exact Ideal.ofBits_zero_f32

/-- The second payload: the carried entry plus one block's product of row `p` with row `q`. -/
theorem pay2_apply (x0 : Vec Ideal S1024x512 .f32) (x1 : Vec Ideal S2048x512 .bf16) (a : Vec Ideal S1024x2048 .f32)
    (p : Fin 1024) (q : Fin 2048) :
    k1_pay2 (F := Ideal) x0 x1 a (ix2 p q) = a (ix2 p q) + ∑ k : Fin 512, x0 (ix2 p k) * x1 (ix2 q k) := by
  unfold k1_pay2
  simp only [shapeCast_self]
  rw [addf_apply]
  simp only [matmul]
  rw [Ideal.matmul_constant_zero_apply,
    ← Equiv.sum_comp (contrEquiv1 dot_S1024x512_S2048x512_S1024x2048_1_1_0_0_n_n 512 rfl rfl).symm]
  refine congrArg (a (ix2 p q) + ·) (Finset.sum_congr rfl fun k _ => ?_)
  have hk := contrEquiv1_symm_val dot_S1024x512_S2048x512_S1024x2048_1_1_0_0_n_n 512 rfl rfl k
  have el : dot_S1024x512_S2048x512_S1024x2048_1_1_0_0_n_n.lhsIdx (ix2 p q)
      ((contrEquiv1 dot_S1024x512_S2048x512_S1024x2048_1_1_0_0_n_n 512 rfl rfl).symm k) = ix2 p k :=
    funext fun ax => Fin.ext (by
      match ax with
      | ⟨0, _⟩ => exact lhs_mm_0 _ _
      | ⟨1, _⟩ => exact (lhs_mm_1 _ _).trans hk)
  have er : dot_S1024x512_S2048x512_S1024x2048_1_1_0_0_n_n.rhsIdx (ix2 p q)
      ((contrEquiv1 dot_S1024x512_S2048x512_S1024x2048_1_1_0_0_n_n 512 rfl rfl).symm k) = ix2 q k :=
    funext fun ax => Fin.ext (by
      match ax with
      | ⟨0, _⟩ => exact rhs_mm_0 _ _
      | ⟨1, _⟩ => exact (rhs_mm_1 _ _).trans hk)
  rw [el, er, truncf_apply]

/-- The third payload: the carried entry plus the bias row at column `q`. -/
theorem pay3_apply (x2 : Vec Ideal S1x2048 .f32) (a : Vec Ideal S1024x2048 .f32) (p : Fin 1024) (q : Fin 2048) :
    k1_pay3 (F := Ideal) x2 a (ix2 p q) = a (ix2 p q) + x2 (ix2 0 q) := by
  unfold k1_pay3
  simp only [shapeCast_self]
  rw [addf_apply, broadcastTo_1b_ab_apply]

end Cert.KernelIdeal.HandVal1

end
-- ==== Proof.SumBlocks.lean ====
/-
  Two facts about finite sums of extended reals, used to regroup a contraction over 4096 positions computed
  in eight consecutive blocks of 512.

  Only commutativity and associativity of addition are used; they hold on the extended reals.
-/
import Mathlib.Data.EReal.Basic
import Mathlib.Data.Fintype.BigOperators
import Mathlib.Algebra.BigOperators.Fin

noncomputable section

namespace Cert.Spec

open scoped BigOperators

/-- A position below 4096 is a block number below 8 and a position below 512 inside the block. -/
def blockEquiv : Fin 8 × Fin 512 ≃ Fin 4096 where
  toFun p := ⟨p.1.val * 512 + p.2.val, by have := p.1.isLt; have := p.2.isLt; omega⟩
  invFun i := (⟨i.val / 512, by have := i.isLt; omega⟩, ⟨i.val % 512, Nat.mod_lt _ (by decide)⟩)
  left_inv p := by
    have h1 := p.1.isLt
    have h2 := p.2.isLt
    refine Prod.ext (Fin.ext ?_) (Fin.ext ?_)
    · show (p.1.val * 512 + p.2.val) / 512 = p.1.val
      omega
    · show (p.1.val * 512 + p.2.val) % 512 = p.2.val
      omega
  right_inv i := by
    refine Fin.ext ?_
    show i.val / 512 * 512 + i.val % 512 = i.val
    omega

/-- The sum over 4096 positions is the sum over the eight blocks of the sums inside each block. -/
theorem sum_blocks (f : Fin 4096 → EReal) :
    ∑ i : Fin 4096, f i
      = ∑ k : Fin 8, ∑ kk : Fin 512, f ⟨k.val * 512 + kk.val, by have := k.isLt; have := kk.isLt; omega⟩ := by
  rw [← Equiv.sum_comp blockEquiv f, Fintype.sum_prod_type]
  rfl

/-- What `n + 1` steps of "start from zero, add a block's product each time" leave. -/
def accUpTo (g : ℕ → EReal) : ℕ → EReal
  | 0 => 0 + g 0
  | (n + 1) => accUpTo g n + g (n + 1)

/-- The running total after step `n` is the sum of the terms up to `n`. -/
theorem accUpTo_eq_sum_range (g : ℕ → EReal) (n : ℕ) : accUpTo g n = ∑ k ∈ Finset.range (n + 1), g k := by
  induction n with
  | zero => simp [accUpTo]
  | succ n ih => rw [accUpTo, ih, Finset.sum_range_succ _ (n + 1)]

/-- After the eighth step the running total is the sum of the eight terms. -/
theorem accUpTo_seven (g : ℕ → EReal) : accUpTo g 7 = ∑ k : Fin 8, g k.val := by
  rw [accUpTo_eq_sum_range, Fin.sum_univ_eq_sum_range (fun k => g k) 8]

end Cert.Spec

end
-- ==== Proof.BlockDot.lean ====
/-
  The contraction over 4096 positions as eight accumulated blocks of 512.

  One block's contribution to the product of a row `X` with a row `W` is the sum of the 512 products inside the
  block; starting from zero and adding the eight contributions in order leaves the whole product, and the linear map
  of the specification is that product plus the bias.
-/
import proofs.«409063_j22093311771209_3_alg».proof.Proof.Spec
import proofs.«409063_j22093311771209_3_alg».proof.Proof.SumBlocks

noncomputable section

namespace Cert.Spec

open scoped BigOperators

/-- Block `k`'s contribution to the product of two rows of 4096 entries: the products at positions
    `k * 512 .. k * 512 + 511` (a block past the eighth contributes nothing). -/
def blockDot (X W : Fin 4096 → EReal) (k : ℕ) : EReal :=
  ∑ cc : Fin 512, if h : k * 512 + cc.val < 4096 then X ⟨k * 512 + cc.val, h⟩ * W ⟨k * 512 + cc.val, h⟩ else 0

/-- Inside the eight blocks the contribution is the plain sum of the block's products. -/
theorem blockDot_eq (X W : Fin 4096 → EReal) (k : ℕ) (hk : k < 8) :
    blockDot X W k = ∑ cc : Fin 512, X ⟨k * 512 + cc.val, by have := cc.isLt; omega⟩
      * W ⟨k * 512 + cc.val, by have := cc.isLt; omega⟩ := by
  unfold blockDot
  refine Finset.sum_congr rfl fun cc _ => ?_
  rw [dif_pos (by have := cc.isLt; omega)]

/-- Eight accumulated blocks are the whole product. -/
theorem accUpTo_blockDot_seven (X W : Fin 4096 → EReal) :
    accUpTo (blockDot X W) 7 = ∑ i : Fin 4096, X i * W i := by
  rw [accUpTo_seven, sum_blocks (fun i => X i * W i)]
  exact Finset.sum_congr rfl fun k _ => blockDot_eq X W k.val k.isLt

/-- The linear map of the specification, as eight accumulated blocks plus the bias. -/
theorem linear_eq_acc (X : Fin 8192 → Fin 4096 → EReal) (Wt : Fin 4096 → Fin 4096 → EReal) (B : Fin 4096 → EReal)
    (r : Fin 8192) (o : Fin 4096) : linear X Wt B r o = accUpTo (blockDot (X r) (Wt o)) 7 + B o := by
  unfold linear
  rw [accUpTo_blockDot_seven]

end Cert.Spec

end
-- ==== Proof.Val1Acc.lean ====
/-
  The accumulator of the matrix-product region, point by point, and the output's block at the last step.

  The accumulator after point `t` (coordinates `i = t / 16`, `j = (t / 8) % 2`, `k = t % 8`) holds, at an entry of
  its block, the running total of the first `k + 1` blocks' contributions to that entry's product, started from
  zero at `k = 0`: by induction on the point. At `k = 7` the total is the whole product, and the body stores it plus
  the bias into the output's block: the specification's linear map at that entry.
-/
import proofs.«409063_j22093311771209_3_alg».proof.Proof.Val1Piece
import proofs.«409063_j22093311771209_3_alg».proof.Proof.Val1Blk
import proofs.«409063_j22093311771209_3_alg».proof.Proof.Val1Pay
import proofs.«409063_j22093311771209_3_alg».proof.Proof.BlockDot

noncomputable section

namespace Cert.KernelIdeal.HandVal1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-! ## The rows the product contracts -/

/-- Row `r` of the activations. -/
abbrev Xrow (c : Dev nD) (r : Fin 8192) : Fin 4096 → EReal := fun i => xarr V c (ix2 r i)
/-- Row `o` of the weight. -/
abbrev Wrow (c : Dev nD) (o : Fin 4096) : Fin 4096 → EReal := fun i => warr V c (ix2 o i)

/-- One point's product of its two blocks' rows is that point's block of the rows' product. -/
theorem blockdot_at (c : Dev nD) (t : Fin cfg1.N) (r : Fin 8192) (o : Fin 4096) (p : Fin 1024) (q : Fin 2048)
    (hr : r.val = t.val / 16 * 1024 + p.val) (ho : o.val = t.val / 8 % 2 * 2048 + q.val) :
    ∑ k : Fin 512, xblk V c t (ix2 p k) * wblk V c t (ix2 q k)
      = Spec.blockDot (Xrow V c r) (Wrow V c o) (t.val % 8) := by
  rw [Spec.blockDot_eq _ _ _ (Nat.mod_lt _ (by decide))]
  refine Finset.sum_congr rfl fun k _ => ?_
  rw [xblk_apply V c t p k r ⟨t.val % 8 * 512 + k.val, by have := k.isLt; omega⟩ hr rfl,
    wblk_apply V c t q k o ⟨t.val % 8 * 512 + k.val, by have := k.isLt; omega⟩ ho rfl]

/-! ## The accumulator after each point -/

/-- At a point with k = 0 the accumulator holds the first block's contribution, added to zero. -/
theorem acc_A (c : Dev nD) (t : Fin cfg1.N) (h0 : t.val % 8 = 0) (r : Fin 8192) (o : Fin 4096) (p : Fin 1024)
    (q : Fin 2048) (hr : r.val = t.val / 16 * 1024 + p.val) (ho : o.val = t.val / 8 % 2 * 2048 + q.val) :
    (outsAt1 V c t.val t.isLt).2 (ix2 p q) = Spec.accUpTo (Spec.blockDot (Xrow V c r) (Wrow V c o)) (t.val % 8) := by
  have h1 : ¬t.val % 8 = 7 := by omega
  rw [outsAt1_A V c t h0 h1]
  dsimp only
  refine (congrFun (sout_A (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (xblk V c t) (wblk V c t) (bblk V c t)) (ix2 p q)).trans ?_
  rw [pay2_apply, pay1_apply, blockdot_at V c t r o p q hr ho, h0]
  rfl

/-- At a point with k ≠ 0 the accumulator holds the body's update of what the point before left. -/
theorem acc_step (c : Dev nD) (n : ℕ) (hn : n + 1 < cfg1.N) (h0 : ¬(n + 1) % 8 = 0) :
    (outsAt1 V c (n + 1) hn).2
      = k1_pay2 (F := Ideal) (xblk V c ⟨n + 1, hn⟩) (wblk V c ⟨n + 1, hn⟩) (outsAt1 V c n (Nat.lt_of_succ_lt hn)).2 := by
  have h0' : ¬(⟨n + 1, hn⟩ : Fin cfg1.N).val % 8 = 0 := h0
  by_cases h1 : (n + 1) % 8 = 7
  · have h1' : (⟨n + 1, hn⟩ : Fin cfg1.N).val % 8 = 7 := h1
    rw [outsAt1_C V c ⟨n + 1, hn⟩ h0' h1']
    dsimp only
    exact sout_C (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0' ((hcond1_0 ⟨n + 1, hn⟩).mp h)) ((hcond1_1 ⟨n + 1, hn⟩).mpr h1') (xblk V c ⟨n + 1, hn⟩) (wblk V c ⟨n + 1, hn⟩) (bblk V c ⟨n + 1, hn⟩) (outsAt1 V c n (Nat.lt_of_succ_lt hn)).2
  · have h1' : ¬(⟨n + 1, hn⟩ : Fin cfg1.N).val % 8 = 7 := h1
    rw [outsAt1_B V c ⟨n + 1, hn⟩ h0' h1']
    dsimp only
    exact sout_B (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0' ((hcond1_0 ⟨n + 1, hn⟩).mp h)) (fun h => h1' ((hcond1_1 ⟨n + 1, hn⟩).mp h)) (xblk V c ⟨n + 1, hn⟩) (wblk V c ⟨n + 1, hn⟩) (bblk V c ⟨n + 1, hn⟩) (outsAt1 V c n (Nat.lt_of_succ_lt hn)).2

/-- THE INVARIANT: after point `n` the accumulator's entry for row `r` and column `o` (an entry of the point's
    block) is the running total of the blocks' contributions up to `k = n % 8`. -/
theorem acc_inv (c : Dev nD) : ∀ (n : ℕ) (hn : n < cfg1.N) (r : Fin 8192) (o : Fin 4096) (p : Fin 1024) (q : Fin 2048),
    r.val = n / 16 * 1024 + p.val → o.val = n / 8 % 2 * 2048 + q.val →
    (outsAt1 V c n hn).2 (ix2 p q) = Spec.accUpTo (Spec.blockDot (Xrow V c r) (Wrow V c o)) (n % 8) := by
  intro n
  induction n with
  | zero =>
    intro hn r o p q hr ho
    exact acc_A V c ⟨0, hn⟩ rfl r o p q hr ho
  | succ n ih =>
    intro hn r o p q hr ho
    by_cases h0 : (n + 1) % 8 = 0
    · exact acc_A V c ⟨n + 1, hn⟩ h0 r o p q hr ho
    · rw [acc_step V c n hn h0, pay2_apply, ih (Nat.lt_of_succ_lt hn) r o p q (by omega) (by omega),
        blockdot_at V c ⟨n + 1, hn⟩ r o p q hr ho]
      obtain ⟨k', hk'⟩ : ∃ k', (n + 1) % 8 = k' + 1 := ⟨(n + 1) % 8 - 1, by omega⟩
      have hk : n % 8 = k' := by omega
      dsimp only
      rw [hk', hk]
      rfl

/-! ## The output's block at k = 7, and the output array -/

/-- The activations, the weight and the bias as the specification takes them. -/
abbrev Xm (c : Dev nD) : Fin 8192 → Fin 4096 → EReal := fun r i => xarr V c (ix2 r i)
abbrev Wm (c : Dev nD) : Fin 4096 → Fin 4096 → EReal := fun o i => warr V c (ix2 o i)
abbrev Bv (c : Dev nD) : Fin 4096 → EReal := fun o => barr V c (ix2 (0 : Fin 1) o)

/-- At a point with k = 7 the output's buffer holds the bias added to the accumulator. -/
theorem out_C_eq (c : Dev nD) (t : Fin cfg1.N) (h7 : t.val % 8 = 7) :
    (outsAt1 V c t.val t.isLt).1 = k1_pay3 (F := Ideal) (bblk V c t) (outsAt1 V c t.val t.isLt).2 := by
  have h0 : ¬t.val % 8 = 0 := by omega
  rw [outsAt1_C V c t h0 h7]
  dsimp only
  rw [out_C (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h7) (xblk V c t) (wblk V c t) (bblk V c t) (outsAt1 V c (t.val - 1) (Nat.lt_of_le_of_lt (Nat.sub_le _ _) t.isLt)).2,
    sout_C (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h7) (xblk V c t) (wblk V c t) (bblk V c t) (outsAt1 V c (t.val - 1) (Nat.lt_of_le_of_lt (Nat.sub_le _ _) t.isLt)).2]

/-- So its entry for row `r` and column `o` is the specification's linear map there. -/
theorem out_apply (c : Dev nD) (t : Fin cfg1.N) (h7 : t.val % 8 = 7) (r : Fin 8192) (o : Fin 4096) (p : Fin 1024)
    (q : Fin 2048) (hr : r.val = t.val / 16 * 1024 + p.val) (ho : o.val = t.val / 8 % 2 * 2048 + q.val) :
    (outsAt1 V c t.val t.isLt).1 (ix2 p q) = Spec.linear (Xm V c) (Wm V c) (Bv V c) r o := by
  rw [out_C_eq V c t h7, pay3_apply, acc_inv V c t.val t.isLt r o p q hr ho, bblk_apply V c t q o ho, h7,
    Spec.linear_eq_acc]

/-- The output array the region leaves: the linear map, entry by entry. -/
def G (c : Dev nD) : Vec Ideal S8192x4096 .f32 := fun i => Spec.linear (Xm V c) (Wm V c) (Bv V c) (i 0) (i 1)

end Cert.KernelIdeal.HandVal1

end
-- ==== Proof.Val1.lean ====
/-
  The value of the matrix-product region: after the last grid point the output array holds, at row `r` and column
  `o`, the product of row `r` of the activations with row `o` of the weight, plus the bias at `o`.

  A point with `k = 7` writes back the output's block, whose entries are the specification's linear map; these
  blocks tile the output array.
-/
import proofs.«409063_j22093311771209_3_alg».proof.Proof.Val1Acc

noncomputable section

namespace Cert.KernelIdeal.HandVal1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- What a point with k = 7 writes back is its block of `G`. -/
theorem flushed_eq (c : Dev nD) (t : Fin cfg1.N) (hf : (cfg1.win 3).flush t = true) :
    (dat1 V c).flushed 3 t = ((cfg1.win 3).blk t).view.read (Elt Ideal) (G V c) := by
  have h7 : t.val % 8 = 7 := (flush1_3 t).mp hf
  obtain ⟨-, -, -, -, -, -, e6, e7⟩ := idx_facts t
  have hN : cfg1.N = 128 := N_1
  have ht := t.isLt
  show (cfg1.win 3).cut (grid1.coords t) ((dat1 V c).after 3 t) = _
  rw [after1_3]
  funext j
  have hj0 : (j 0).val < 1024 := (j 0).isLt
  have hj1 : (j 1).val < 2048 := (j 1).isLt
  have hx : (cfg1.win 3).xinj (grid1.coords t) j = ix2 (⟨(j 0).val, hj0⟩ : Fin 1024) (⟨(j 1).val, hj1⟩ : Fin 2048) :=
    funext fun a => by match a with | ⟨0, _⟩ => rfl | ⟨1, _⟩ => rfl
  show (outsAt1 V c t.val t.isLt).1 ((cfg1.win 3).xinj (grid1.coords t) j) = G V c (((cfg1.win 3).blk t).view.emb j)
  rw [hx, out_apply V c t h7 ⟨t.val / 16 * 1024 + (j 0).val, by omega⟩ ⟨t.val / 8 % 2 * 2048 + (j 1).val, by omega⟩
    ⟨(j 0).val, hj0⟩ ⟨(j 1).val, hj1⟩ rfl rfl]
  have e0 : (⟨t.val / 16 * 1024 + (j 0).val, by omega⟩ : Fin 8192) = ((cfg1.win 3).blk t).view.emb j 0 :=
    Fin.ext (show t.val / 16 * 1024 + (j 0).val = win1_3.index t (0 : Fin 2) * 1024 + 1 * (j 0).val by omega)
  have e1 : (⟨t.val / 8 % 2 * 2048 + (j 1).val, by omega⟩ : Fin 4096) = ((cfg1.win 3).blk t).view.emb j 1 :=
    Fin.ext (show t.val / 8 % 2 * 2048 + (j 1).val = win1_3.index t (1 : Fin 2) * 2048 + 1 * (j 1).val by omega)
  show Spec.linear (Xm V c) (Wm V c) (Bv V c) _ _
    = Spec.linear (Xm V c) (Wm V c) (Bv V c) (((cfg1.win 3).blk t).view.emb j 0) (((cfg1.win 3).blk t).view.emb j 1)
  rw [e0, e1]

/-- The output array after the last point. -/
theorem arr1_eq (c : Dev nD) : (dat1 V c).arrAt 3 cfg1.N = G V c :=
  (dat1 V c).arrAt_eq_of_cover 3 (G V c) (flushed_eq V c) ocover

/-- THE REGION'S VALUE: entry (r, o) of the output array after the last point. -/
theorem arr1_apply (c : Dev nD) (r : Fin 8192) (o : Fin 4096) :
    ((dat1 (F := Ideal) V c).arrAt 3 cfg1.N : Vec Ideal S8192x4096 .f32) (ix2 r o)
      = Spec.linear (fun r i => (V c main_v3 : Vec Ideal S8192x4096 .f32) (ix2 r i))
          (fun o i => (V c main_v2 : Vec Ideal S4096x4096 .bf16) (ix2 o i))
          (fun o => (V c main_v4 : Vec Ideal S1x4096 .f32) (ix2 (0 : Fin 1) o)) r o := by
  rw [arr1_eq]
  rfl

end Cert.KernelIdeal.HandVal1

end
-- ==== Proof.RefRun.lean ====
/-
  The reference program's run, read back: after @main every weakly fair execution ends with the result buffer at
  one composed term of the four argument arrays, `refOut`, and the arguments unchanged.

  `refOut` is the composition of @main's operations in order: the packed words are split into their high and low
  4-bit codes, the two columns are laid side by side and flattened (even positions the high code, odd positions
  the low one), a negative index would be wrapped by 16, the codes are looked up in the sixteen-entry table, the
  looked-up values are scaled in groups of 64 by the scale numbers, the scaled values are read as a 4096 x 4096
  matrix, `x` is contracted with that matrix along its last axis, and the bias is added along the last axis.
-/
import proofs.«409063_j22093311771209_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The sixteen-entry table of the lookup, as the program's constant holds it. -/
def table : FVec F S16 .f32 := fun i => FloatOps.ofBits .f32 (lit0 (S16.rowMajor i))

/-- The 2 * 8388608 codes, flat: the column of high codes `(w >>> 4) &&& 15` and the column of low codes `w &&& 15`
    side by side, read row-major. -/
def codes (wp : IVec S8388608 32) : IVec S16777216 32 :=
  shapeCast _ (concatenate S8388608x2 1 [⟨S8388608x1, (broadcastInDim S8388608x1 ![0] bcast_S8388608_S8388608x1_0 (andi (Host.shrsi wp (broadcastInDim S8388608 ![] bcast_S_S8388608 (constantI S_ 32 4#32))) (broadcastInDim S8388608 ![] bcast_S_S8388608 (constantI S_ 32 15#32))))⟩, ⟨S8388608x1, (broadcastInDim S8388608x1 ![0] bcast_S8388608_S8388608x1_0 (andi wp (broadcastInDim S8388608 ![] bcast_S_S8388608 (constantI S_ 32 15#32))))⟩] concatenates_S8388608x1_S8388608x1_S8388608x2_d1) shapeCasts_S8388608x2_S16777216

/-- The lookup indices: a negative code would have 16 added. -/
def wrapped (wp : IVec S8388608 32) : IVec S16777216 32 :=
  select (cmpi .slt (codes wp) (broadcastInDim S16777216 ![] bcast_S_S16777216 (constantI S_ 32 0#32))) (addi (codes wp) (broadcastInDim S16777216 ![] bcast_S_S16777216 (constantI S_ 32 16#32))) (codes wp)

/-- The dequantized weight matrix: the table at the indices, in groups of 64 times the scale numbers, read as 4096 rows
    of 4096. -/
def wmat (wp : IVec S8388608 32) (sc : FVec F S262144 .f32) : FVec F S4096x4096 .f32 :=
  shapeCast _ (mulf (shapeCast _ (Host.gather gather_S16_S16777216x1_S16777216_n_0_n_n_0_1_1 (table (F := F)) (broadcastInDim S16777216x1 ![0] bcast_S16777216_S16777216x1_0 (wrapped wp))) shapeCasts_S16777216_S262144x64) (broadcastInDim S262144x64 ![0, 1] bcast_S262144x1_S262144x64_0_1 (broadcastInDim S262144x1 ![0] bcast_S262144_S262144x1_0 sc))) shapeCasts_S262144x64_S4096x4096

/-- What @main leaves in its result buffer, as a function of the four argument arrays. -/
def refOut (x : FVec F S4x2048x4096 .f32) (wp : IVec S8388608 32) (sc : FVec F S262144 .f32) (b : FVec F S4096 .f32) :
    FVec F S4x2048x4096 .f32 :=
  addf (Host.dotGeneral dot_S4x2048x4096_S4096x4096_S4x2048x4096_2_1_01_0_n_n none x (wmat wp sc)) (broadcastInDim S4x2048x4096 ![0, 1, 2] bcast_S1x1x4096_S4x2048x4096_0_1_2 (broadcastInDim S1x1x4096 ![2] bcast_S4096_S1x1x4096_2 b))

/-- @main's 32 operations, in order. -/
abbrev ops : List (HloOp τ sig (Elt F)) :=
  [ nullary main_cst (fun i => FloatOps.ofBits .f32 (lit0 (S16.rowMajor i))),
    nullary main_c (constantI S_ 32 4#32),
    unary main_c main_v0 (broadcastInDim S8388608 ![] bcast_S_S8388608 : (⟨S_, .i32⟩ : BufTy).Contents (Elt F) → (⟨S8388608, .i32⟩ : BufTy).Contents (Elt F)),
    binary main_arg1 main_v0 main_v1 (Host.shrsi : (⟨S8388608, .i32⟩ : BufTy).Contents (Elt F) → (⟨S8388608, .i32⟩ : BufTy).Contents (Elt F) → (⟨S8388608, .i32⟩ : BufTy).Contents (Elt F)),
    nullary main_c_0 (constantI S_ 32 15#32),
    unary main_c_0 main_v2 (broadcastInDim S8388608 ![] bcast_S_S8388608 : (⟨S_, .i32⟩ : BufTy).Contents (Elt F) → (⟨S8388608, .i32⟩ : BufTy).Contents (Elt F)),
    binary main_v1 main_v2 main_v3 (andi : (⟨S8388608, .i32⟩ : BufTy).Contents (Elt F) → (⟨S8388608, .i32⟩ : BufTy).Contents (Elt F) → (⟨S8388608, .i32⟩ : BufTy).Contents (Elt F)),
    nullary main_c_1 (constantI S_ 32 15#32),
    unary main_c_1 main_v4 (broadcastInDim S8388608 ![] bcast_S_S8388608 : (⟨S_, .i32⟩ : BufTy).Contents (Elt F) → (⟨S8388608, .i32⟩ : BufTy).Contents (Elt F)),
    binary main_arg1 main_v4 main_v5 (andi : (⟨S8388608, .i32⟩ : BufTy).Contents (Elt F) → (⟨S8388608, .i32⟩ : BufTy).Contents (Elt F) → (⟨S8388608, .i32⟩ : BufTy).Contents (Elt F)),
    unary main_v3 main_v6 (broadcastInDim S8388608x1 ![0] bcast_S8388608_S8388608x1_0 : (⟨S8388608, .i32⟩ : BufTy).Contents (Elt F) → (⟨S8388608x1, .i32⟩ : BufTy).Contents (Elt F)),
    unary main_v5 main_v7 (broadcastInDim S8388608x1 ![0] bcast_S8388608_S8388608x1_0 : (⟨S8388608, .i32⟩ : BufTy).Contents (Elt F) → (⟨S8388608x1, .i32⟩ : BufTy).Contents (Elt F)),
    binary main_v6 main_v7 main_v8 ((fun a b => concatenate S8388608x2 1 [⟨S8388608x1, a⟩, ⟨S8388608x1, b⟩] concatenates_S8388608x1_S8388608x1_S8388608x2_d1) : (⟨S8388608x1, .i32⟩ : BufTy).Contents (Elt F) → (⟨S8388608x1, .i32⟩ : BufTy).Contents (Elt F) → (⟨S8388608x2, .i32⟩ : BufTy).Contents (Elt F)),
    reshape main_v8 main_v9 rfl shapeCasts_S8388608x2_S16777216,
    nullary main_c_2 (constantI S_ 32 0#32),
    unary main_c_2 main_v10 (broadcastInDim S16777216 ![] bcast_S_S16777216 : (⟨S_, .i32⟩ : BufTy).Contents (Elt F) → (⟨S16777216, .i32⟩ : BufTy).Contents (Elt F)),
    binary main_v9 main_v10 main_v11 (cmpi .slt : (⟨S16777216, .i32⟩ : BufTy).Contents (Elt F) → (⟨S16777216, .i32⟩ : BufTy).Contents (Elt F) → (⟨S16777216, .i1⟩ : BufTy).Contents (Elt F)),
    nullary main_c_3 (constantI S_ 32 16#32),
    unary main_c_3 main_v12 (broadcastInDim S16777216 ![] bcast_S_S16777216 : (⟨S_, .i32⟩ : BufTy).Contents (Elt F) → (⟨S16777216, .i32⟩ : BufTy).Contents (Elt F)),
    binary main_v9 main_v12 main_v13 (addi : (⟨S16777216, .i32⟩ : BufTy).Contents (Elt F) → (⟨S16777216, .i32⟩ : BufTy).Contents (Elt F) → (⟨S16777216, .i32⟩ : BufTy).Contents (Elt F)),
    ternary main_v11 main_v13 main_v9 main_v14 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v14 main_v15 (broadcastInDim S16777216x1 ![0] bcast_S16777216_S16777216x1_0 : (⟨S16777216, .i32⟩ : BufTy).Contents (Elt F) → (⟨S16777216x1, .i32⟩ : BufTy).Contents (Elt F)),
    binary main_cst main_v15 main_v16 ((fun x i => Host.gather gather_S16_S16777216x1_S16777216_n_0_n_n_0_1_1 x i) : (⟨S16, .f32⟩ : BufTy).Contents (Elt F) → (⟨S16777216x1, .i32⟩ : BufTy).Contents (Elt F) → (⟨S16777216, .f32⟩ : BufTy).Contents (Elt F)),
    reshape main_v16 main_v17 rfl shapeCasts_S16777216_S262144x64,
    unary main_arg2 main_v18 (broadcastInDim S262144x1 ![0] bcast_S262144_S262144x1_0 : (⟨S262144, .f32⟩ : BufTy).Contents (Elt F) → (⟨S262144x1, .f32⟩ : BufTy).Contents (Elt F)),
    unary main_v18 main_v19 (broadcastInDim S262144x64 ![0, 1] bcast_S262144x1_S262144x64_0_1 : (⟨S262144x1, .f32⟩ : BufTy).Contents (Elt F) → (⟨S262144x64, .f32⟩ : BufTy).Contents (Elt F)),
    binary main_v17 main_v19 main_v20 (mulf : (⟨S262144x64, .f32⟩ : BufTy).Contents (Elt F) → (⟨S262144x64, .f32⟩ : BufTy).Contents (Elt F) → (⟨S262144x64, .f32⟩ : BufTy).Contents (Elt F)),
    reshape main_v20 main_v21 rfl shapeCasts_S262144x64_S4096x4096,
    binary main_arg0 main_v21 main_v22 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg3 main_v23 (broadcastInDim S1x1x4096 ![2] bcast_S4096_S1x1x4096_2 : (⟨S4096, .f32⟩ : BufTy).Contents (Elt F) → (⟨S1x1x4096, .f32⟩ : BufTy).Contents (Elt F)),
    unary main_v23 main_v24 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v22 main_v24 main_v25 (addf : (⟨S4x2048x4096, .f32⟩ : BufTy).Contents (Elt F) → (⟨S4x2048x4096, .f32⟩ : BufTy).Contents (Elt F) → (⟨S4x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., binary_bufs_sub .., unary_bufs_sub .., unary_bufs_sub .., binary_bufs_sub ..⟩

set_option maxHeartbeats 4000000 in
/-- On every device, for any float values, from any memory with zero counters: every weakly fair execution of
    @main terminates with the result buffer at `refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v25).trans (by after_results <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.Hand

end
-- ==== Proof.RefRead.lean ====
/-
  The reference's result at an index is the specification's.

  `refOut` is read one operation at a time at the result index `(bb, s, o)`. The addition splits it into the
  contraction and the bias; the contraction over `x`'s last axis and the weight matrix's second axis is the plain sum
  over `i` of `x[bb, s, i] * W[o, i]`; the bias broadcast along the last axis reads `b[o]`. The weight matrix entry
  `W[o, i]` is entry `E = o * 4096 + i` of the flat scaled array (both reshapes are row-major re-indexings): the table
  at the code at position `E`, times scale number `E / 64 = o * 64 + i / 64`. The flat codes are the two columns of
  high and low codes side by side, so position `E` holds the high code of word `E / 2 = o * 2048 + i / 2` when `E`
  (equally `i`) is even and its low code when odd. A code is a word masked with 15: it lies in 0..15, is not negative
  as a signed number (the wrap by 16 is never taken), and the lookup's clamp into 0..15 leaves it alone. After the mask
  only bits 4..7 of the packed word remain, where the arithmetic shift of the program and the logical shift of the
  specification agree. The table's sixteen words are the specification's codebook words.
-/
import proofs.«409063_j22093311771209_3_alg».proof.Proof.RefRun
import proofs.«409063_j22093311771209_3_alg».proof.Proof.Spec
import Idealize.ShloMosaic.Lib.ValueIdx
import Idealize.ShloMosaic.Lib.Pipeline.Value
import Idealize.ShloMosaic.PureOps.Ideal.Laws

noncomputable section

namespace Cert.ReferenceIdeal.HandRead

open Cert.ReferenceIdeal Cert.ReferenceIdeal.Gen Cert.ReferenceIdeal.Hand Idealize.ShloMosaic Idealize.ShloMosaic.ValueIdx
open scoped BigOperators

/-! ## Words -/

/-- Masked with 15, the arithmetic shift right by 4 is the logical one: bit `i < 4` of either is bit `4 + i` of the word,
    and the mask clears every bit from 4 up, where alone the two shifts differ. -/
theorem sshift_mask (w : BitVec 32) : (w.sshiftRight' 4#32) &&& 15#32 = (w >>> 4) &&& 15#32 := by
  apply BitVec.eq_of_getLsbD_eq
  intro i hi
  simp only [BitVec.getLsbD_and, BitVec.sshiftRight', BitVec.getLsbD_sshiftRight, BitVec.getLsbD_ushiftRight]
  have h4 : (4#32).toNat = 4 := rfl
  rw [h4]
  by_cases hlt : i < 4
  · have h1 : 4 + i < 32 := by omega
    have h2 : ¬ 32 ≤ i := by omega
    rw [if_pos h1]; simp [h2]
  · have h15 : (15#32).getLsbD i = false := by
      have : (15 : Nat) < 2 ^ i := lt_of_lt_of_le (by decide : (15 : Nat) < 2 ^ 4) (Nat.pow_le_pow_right (by decide) (Nat.le_of_not_lt hlt))
      simp [BitVec.getLsbD_ofNat, Nat.testBit_lt_two_pow this]
    rw [h15]; simp

/-- A word masked with 15 is at most 15. -/
theorem code_toNat_le (v : BitVec 32) : (v &&& 15#32).toNat ≤ 15 := by
  rw [BitVec.toNat_and]; exact Nat.and_le_right

/-- ... so read as a signed number it is the same natural number. -/
theorem code_toInt (v : BitVec 32) : (v &&& 15#32).toInt = ((v &&& 15#32).toNat : Int) := by
  have h := code_toNat_le v
  rw [BitVec.toInt_eq_toNat_cond, if_pos (by omega)]

/-- ... and it is not below zero as a signed number. -/
theorem code_not_neg (v : BitVec 32) : IntOp.cmpi .slt (v &&& 15#32) 0#32 = 0#1 := by
  have h := code_toInt v
  have h0 : (0#32).toInt = 0 := rfl
  have hs : (v &&& 15#32).slt 0#32 = false := by
    simp only [BitVec.slt, h, h0]
    exact decide_eq_false (by omega)
  show BitVec.ofBool ((v &&& 15#32).slt 0#32) = 0#1
  rw [hs]; rfl

/-- The table's sixteen words are the codebook's. -/
theorem lit0_eq (k : Fin 16) : lit0 k = Cert.Spec.cbWord k.val := by
  fin_cases k <;> rfl

variable {α : Type}

/-! ## The lookup: a gather from a rank-1 table at a column of start indices -/

/-- Result entry `e` is the table at start index `idx[e, 0]`, read signed and clamped into 0..15. -/
theorem gather_apply (x : S16.Idx → α) (idx : IVec S16777216x1 32) (e : Fin 16777216) :
    Host.gather gather_S16_S16777216x1_S16777216_n_0_n_n_0_1_1 x idx (ix1 e)
      = x (ix1 ⟨min (idx (ix2 e (0 : Fin 1))).toInt.toNat 15, by omega⟩) := by
  unfold Host.gather
  congr 1
  funext a
  obtain rfl : a = 0 := Subsingleton.elim _ _
  refine Fin.ext ?_
  show gather_S16_S16777216x1_S16777216_n_0_n_n_0_1_1.start (ix1 e) idx 0
      + gather_S16_S16777216x1_S16777216_n_0_n_n_0_1_1.batchCoord (ix1 e) 0
      + gather_S16_S16777216x1_S16777216_n_0_n_n_0_1_1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S16_S16777216x1_S16777216_n_0_n_n_0_1_1.startIndexMap from List.mem_singleton.mpr rfl)]
  have hsi : gather_S16_S16777216x1_S16777216_n_0_n_n_0_1_1.siIdx (ix1 e)
      ⟨List.idxOf (0 : Fin 1) gather_S16_S16777216x1_S16777216_n_0_n_n_0_1_1.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Broadcasts along new or unit axes, read at an index -/

/-- A vector as a column, `[n] → [n, 1]`, read at `(r, c)`: entry `r`. -/
theorem column_apply {n : Nat} (h : (⟨1, ![n]⟩ : Shape).BroadcastsInDim ⟨2, ![n, 1]⟩ ![0])
    (x : (⟨1, ![n]⟩ : Shape).Idx → α) (r : Fin n) (c : Fin 1) :
    broadcastInDim ⟨2, ![n, 1]⟩ ![0] h x (ix2 r c) = x (ix1 r) := by
  refine broadcastInDim_apply _ h x _ _ fun a => ?_
  obtain rfl : a = 0 := Subsingleton.elim _ _
  show r.val = if n = 1 then 0 else r.val
  split
  · have := r.isLt; omega
  · rfl

/-- A column spread over `m` columns, `[n, 1] → [n, m]`, read at `(r, c)`: the column's entry `r`. -/
theorem spread_apply {n m : Nat} (h : (⟨2, ![n, 1]⟩ : Shape).BroadcastsInDim ⟨2, ![n, m]⟩ ![0, 1])
    (x : (⟨2, ![n, 1]⟩ : Shape).Idx → α) (r : Fin n) (c : Fin m) :
    broadcastInDim ⟨2, ![n, m]⟩ ![0, 1] h x (ix2 r c) = x (ix2 r (0 : Fin 1)) := by
  refine broadcastInDim_apply _ h x _ _ fun a => ?_
  match a with
  | ⟨0, _⟩ =>
    show r.val = if n = 1 then 0 else r.val
    split
    · have := r.isLt; omega
    · rfl
  | ⟨1, _⟩ =>
    show (0 : ℕ) = if (1 : ℕ) = 1 then 0 else c.val
    rw [if_pos rfl]

/-- A vector along the last of three axes, `[n] → [1, 1, n]`, read at `(a, b, o)`: entry `o`. -/
theorem lastAxis_apply {n : Nat} (h : (⟨1, ![n]⟩ : Shape).BroadcastsInDim ⟨3, ![1, 1, n]⟩ ![2])
    (x : (⟨1, ![n]⟩ : Shape).Idx → α) (a b : Fin 1) (o : Fin n) :
    broadcastInDim ⟨3, ![1, 1, n]⟩ ![2] h x (ix3 a b o) = x (ix1 o) := by
  refine broadcastInDim_apply _ h x _ _ fun d => ?_
  obtain rfl : d = 0 := Subsingleton.elim _ _
  show o.val = if n = 1 then 0 else o.val
  split
  · have := o.isLt; omega
  · rfl

/-- `[1, 1, n] → [p, q, n]` read at `(a, b, o)`: the operand at `(0, 0, o)`. -/
theorem overRows_apply {p q n : Nat} (h : (⟨3, ![1, 1, n]⟩ : Shape).BroadcastsInDim ⟨3, ![p, q, n]⟩ ![0, 1, 2])
    (x : (⟨3, ![1, 1, n]⟩ : Shape).Idx → α) (a : Fin p) (b : Fin q) (o : Fin n) :
    broadcastInDim ⟨3, ![p, q, n]⟩ ![0, 1, 2] h x (ix3 a b o) = x (ix3 (0 : Fin 1) (0 : Fin 1) o) := by
  refine broadcastInDim_apply _ h x _ _ fun d => ?_
  match d with
  | ⟨0, _⟩ =>
    show (0 : ℕ) = if (1 : ℕ) = 1 then 0 else a.val
    rw [if_pos rfl]
  | ⟨1, _⟩ =>
    show (0 : ℕ) = if (1 : ℕ) = 1 then 0 else b.val
    rw [if_pos rfl]
  | ⟨2, _⟩ =>
    show o.val = if n = 1 then 0 else o.val
    split
    · have := o.isLt; omega
    · rfl

/-! ## The codes, the lookup and the weight matrix at an index -/

/-- Position `e` of the flat codes: the high code of word `e / 2` for even `e`, its low code for odd `e`. -/
theorem codes_apply (wp : IVec S8388608 32) (e : Fin 16777216) :
    codes wp (ix1 e) = Cert.Spec.nib (wp (ix1 ⟨e.val / 2, by have := e.isLt; omega⟩)) e.val := by
  have he := e.isLt
  unfold codes
  rw [shapeCast_apply _ _ (ix1 e) (ix2 (⟨e.val / 2, by omega⟩ : Fin 8388608) (⟨e.val % 2, by omega⟩ : Fin 2))
    (by rw [Shape.rowMajor_val_two, Shape.rowMajor_val_one]; show e.val / 2 * 2 + e.val % 2 = e.val; omega)]
  unfold Cert.Spec.nib
  by_cases h2 : e.val % 2 = 0
  · rw [if_pos h2]
    rw [concatenate_pair_apply_left (t := S8388608x2) (s₁ := S8388608x1) (s₂ := S8388608x1) (1 : Fin 2) _ _ _
      (ix2 (⟨e.val / 2, by omega⟩ : Fin 8388608) (⟨e.val % 2, by omega⟩ : Fin 2)) rfl
      (ix2 (⟨e.val / 2, by omega⟩ : Fin 8388608) (0 : Fin 1))
      (by intro b; match b with | ⟨0, _⟩ => rfl | ⟨1, _⟩ => exact h2.symm)]
    rw [column_apply]
    show (IntOp.shrsi .host (wp (ix1 ⟨e.val / 2, _⟩)) 4#32) &&& 15#32 = Cert.Spec.hiNib (wp (ix1 ⟨e.val / 2, _⟩))
    rw [IntOp.shrsi, if_pos (by decide)]
    exact sshift_mask _
  · rw [if_neg h2]
    rw [concatenate_pair_apply_right (t := S8388608x2) (s₁ := S8388608x1) (s₂ := S8388608x1) (1 : Fin 2) _ _ _
      (ix2 (⟨e.val / 2, by omega⟩ : Fin 8388608) (⟨e.val % 2, by omega⟩ : Fin 2)) rfl rfl
      (ix2 (⟨e.val / 2, by omega⟩ : Fin 8388608) (0 : Fin 1))
      (by intro b hb; match b, hb with | ⟨0, _⟩, _ => rfl | ⟨1, _⟩, hb => exact absurd rfl hb)
      (by show 0 + 1 = e.val % 2; omega)]
    rw [column_apply]
    rfl

/-- Every code is some word masked with 15. -/
theorem code_form (wp : IVec S8388608 32) (e : Fin 16777216) : ∃ v : BitVec 32, codes wp (ix1 e) = v &&& 15#32 := by
  rw [codes_apply]; unfold Cert.Spec.nib Cert.Spec.hiNib Cert.Spec.loNib
  split
  · exact ⟨_, rfl⟩
  · exact ⟨_, rfl⟩

/-- The wrap of negative indices is never taken. -/
theorem wrapped_apply (wp : IVec S8388608 32) (e : Fin 16777216) : wrapped wp (ix1 e) = codes wp (ix1 e) := by
  unfold wrapped
  rw [select_apply]
  have hc : cmpi .slt (codes wp) (broadcastInDim S16777216 ![] bcast_S_S16777216 (constantI S_ 32 0#32)) (ix1 e) = 0#1 := by
    show IntOp.cmpi .slt (codes wp (ix1 e)) 0#32 = 0#1
    obtain ⟨v, hv⟩ := code_form wp e
    rw [hv]; exact code_not_neg v
  rw [hc, select_zero]

/-- The looked-up value at position `e` is the codebook entry of the code there. -/
theorem lookup_apply (wp : IVec S8388608 32) (e : Fin 16777216) :
    Host.gather gather_S16_S16777216x1_S16777216_n_0_n_n_0_1_1 (table (F := Ideal))
        (broadcastInDim S16777216x1 ![0] bcast_S16777216_S16777216x1_0 (wrapped wp)) (ix1 e)
      = Cert.Spec.cb (codes wp (ix1 e)) := by
  obtain ⟨v, hv⟩ := code_form wp e
  have h1 := code_toNat_le v
  have h2 := code_toInt v
  have hidx : broadcastInDim S16777216x1 ![0] bcast_S16777216_S16777216x1_0 (wrapped wp) (ix2 e (0 : Fin 1)) = v &&& 15#32 := by
    rw [column_apply, wrapped_apply, hv]
  rw [gather_apply]
  unfold table Cert.Spec.cb
  rw [Ideal.ofBits_def]
  refine congrArg (Ideal.ofBits .f32) ((lit0_eq _).trans (congrArg Cert.Spec.cbWord ?_))
  rw [Shape.rowMajor_val_one]
  show min (broadcastInDim S16777216x1 ![0] bcast_S16777216_S16777216x1_0 (wrapped wp) (ix2 e (0 : Fin 1))).toInt.toNat 15 = _
  rw [hidx, hv, h2, Int.toNat_natCast]; omega

/-- The weight matrix at `(o, i)`: the codebook entry of entry `i`'s code in row `o`, times the row's scale number `i / 64`. -/
theorem wmat_apply (wp : IVec S8388608 32) (sc : FVec Ideal S262144 .f32) (o i : Fin 4096) :
    wmat (F := Ideal) wp sc (ix2 o i)
      = Cert.Spec.cb (Cert.Spec.nib (wp (ix1 ⟨o.val * 2048 + i.val / 2, by have := o.isLt; have := i.isLt; omega⟩)) i.val)
          * sc (ix1 ⟨o.val * 64 + i.val / 64, by have := o.isLt; have := i.isLt; omega⟩) := by
  have ho := o.isLt
  have hi := i.isLt
  unfold wmat
  rw [shapeCast_apply _ _ (ix2 o i) (ix2 (⟨o.val * 64 + i.val / 64, by omega⟩ : Fin 262144) (⟨i.val % 64, by omega⟩ : Fin 64))
    (by rw [Shape.rowMajor_val_two, Shape.rowMajor_val_two]
        show (o.val * 64 + i.val / 64) * 64 + i.val % 64 = o.val * 4096 + i.val; omega)]
  rw [mulf_apply]
  rw [shapeCast_apply _ _ _ (ix1 (⟨o.val * 4096 + i.val, by omega⟩ : Fin 16777216))
    (by rw [Shape.rowMajor_val_one, Shape.rowMajor_val_two]
        show o.val * 4096 + i.val = (o.val * 64 + i.val / 64) * 64 + i.val % 64; omega)]
  rw [lookup_apply, codes_apply, spread_apply, column_apply]
  have e1 : (o.val * 4096 + i.val) / 2 = o.val * 2048 + i.val / 2 := by omega
  have e2 : (o.val * 4096 + i.val) % 2 = i.val % 2 := by omega
  unfold Cert.Spec.nib
  simp only [e1, e2]

/-! ## The contraction at an index -/

/-- The left operand's index at result index `j` and contraction position `k`, axis by axis: `(j 0, j 1, k)`. -/
theorem lhs_axis0 (j : S4x2048x4096.Idx) (k : dot_S4x2048x4096_S4096x4096_S4x2048x4096_2_1_01_0_n_n.contr.Idx) : (dot_S4x2048x4096_S4096x4096_S4x2048x4096_2_1_01_0_n_n.lhsIdx j k 0).val = (j 0).val := by
  unfold DotDims.lhsIdx
  rw [dif_neg (show ¬ (0 : Fin S4x2048x4096.rank) ∈ dot_S4x2048x4096_S4096x4096_S4x2048x4096_2_1_01_0_n_n.lhsBatch by decide),
    dif_pos (show (0 : Fin S4x2048x4096.rank) ∈ dot_S4x2048x4096_S4096x4096_S4x2048x4096_2_1_01_0_n_n.lhsNonContracting by decide)]
  simp only [Fin.val_cast]
  have key : ∀ (p q : Nat) (hp : p < S4x2048x4096.rank) (hq : q < S4x2048x4096.rank), p = q → (j ⟨p, hp⟩).val = (j ⟨q, hq⟩).val :=
    fun p q hp hq h => by subst h; rfl
  exact key _ 0 _ (by decide) (by decide)

theorem lhs_axis1 (j : S4x2048x4096.Idx) (k : dot_S4x2048x4096_S4096x4096_S4x2048x4096_2_1_01_0_n_n.contr.Idx) : (dot_S4x2048x4096_S4096x4096_S4x2048x4096_2_1_01_0_n_n.lhsIdx j k 1).val = (j 1).val := by
  unfold DotDims.lhsIdx
  rw [dif_neg (show ¬ (1 : Fin S4x2048x4096.rank) ∈ dot_S4x2048x4096_S4096x4096_S4x2048x4096_2_1_01_0_n_n.lhsBatch by decide),
    dif_pos (show (1 : Fin S4x2048x4096.rank) ∈ dot_S4x2048x4096_S4096x4096_S4x2048x4096_2_1_01_0_n_n.lhsNonContracting by decide)]
  simp only [Fin.val_cast]
  have key : ∀ (p q : Nat) (hp : p < S4x2048x4096.rank) (hq : q < S4x2048x4096.rank), p = q → (j ⟨p, hp⟩).val = (j ⟨q, hq⟩).val :=
    fun p q hp hq h => by subst h; rfl
  exact key _ 1 _ (by decide) (by decide)

theorem lhs_axis2 (j : S4x2048x4096.Idx) (k : dot_S4x2048x4096_S4096x4096_S4x2048x4096_2_1_01_0_n_n.contr.Idx) :
    (dot_S4x2048x4096_S4096x4096_S4x2048x4096_2_1_01_0_n_n.lhsIdx j k 2).val = (k ⟨0, by decide⟩).val :=
  dot_S4x2048x4096_S4096x4096_S4x2048x4096_2_1_01_0_n_n.lhsIdx_val_of_single rfl j k

/-- The right operand's index, axis by axis: `(j 2, k)`. -/
theorem rhs_axis0 (j : S4x2048x4096.Idx) (k : dot_S4x2048x4096_S4096x4096_S4x2048x4096_2_1_01_0_n_n.contr.Idx) : (dot_S4x2048x4096_S4096x4096_S4x2048x4096_2_1_01_0_n_n.rhsIdx j k 0).val = (j 2).val := by
  unfold DotDims.rhsIdx
  rw [dif_neg (show ¬ (0 : Fin S4096x4096.rank) ∈ dot_S4x2048x4096_S4096x4096_S4x2048x4096_2_1_01_0_n_n.rhsBatch by decide),
    dif_pos (show (0 : Fin S4096x4096.rank) ∈ dot_S4x2048x4096_S4096x4096_S4x2048x4096_2_1_01_0_n_n.rhsNonContracting by decide)]
  simp only [Fin.val_cast]
  have key : ∀ (p q : Nat) (hp : p < S4x2048x4096.rank) (hq : q < S4x2048x4096.rank), p = q → (j ⟨p, hp⟩).val = (j ⟨q, hq⟩).val :=
    fun p q hp hq h => by subst h; rfl
  exact key _ 2 _ (by decide) (by decide)

theorem rhs_axis1 (j : S4x2048x4096.Idx) (k : dot_S4x2048x4096_S4096x4096_S4x2048x4096_2_1_01_0_n_n.contr.Idx) :
    (dot_S4x2048x4096_S4096x4096_S4x2048x4096_2_1_01_0_n_n.rhsIdx j k 1).val = (k ⟨0, by decide⟩).val :=
  dot_S4x2048x4096_S4096x4096_S4x2048x4096_2_1_01_0_n_n.rhsIdx_val_of_single rfl j k

/-- The contraction at `(bb, s, o)` is the plain sum over the contracted coordinate. -/
theorem dot_apply (x : FVec Ideal S4x2048x4096 .f32) (W : FVec Ideal S4096x4096 .f32) (bb : Fin 4) (s : Fin 2048) (o : Fin 4096) :
    Host.dotGeneral (F := Ideal) dot_S4x2048x4096_S4096x4096_S4x2048x4096_2_1_01_0_n_n none x W (ix3 bb s o) = ∑ i : Fin 4096, x (ix3 bb s i) * W (ix2 o i) := by
  simp only [Host.dotGeneral]
  rw [Ideal.dotGeneral_apply, ← Equiv.sum_comp (contrEquiv1 dot_S4x2048x4096_S4096x4096_S4x2048x4096_2_1_01_0_n_n 4096 rfl rfl).symm]
  refine Finset.sum_congr rfl fun i _ => ?_
  have hk := contrEquiv1_symm_val dot_S4x2048x4096_S4096x4096_S4x2048x4096_2_1_01_0_n_n 4096 rfl rfl i
  have hl : dot_S4x2048x4096_S4096x4096_S4x2048x4096_2_1_01_0_n_n.lhsIdx (ix3 bb s o) ((contrEquiv1 dot_S4x2048x4096_S4096x4096_S4x2048x4096_2_1_01_0_n_n 4096 rfl rfl).symm i) = ix3 bb s i := by
    funext a; refine Fin.ext ?_
    match a with
    | ⟨0, _⟩ => exact lhs_axis0 _ _
    | ⟨1, _⟩ => exact lhs_axis1 _ _
    | ⟨2, _⟩ => exact (lhs_axis2 _ _).trans hk
  have hr : dot_S4x2048x4096_S4096x4096_S4x2048x4096_2_1_01_0_n_n.rhsIdx (ix3 bb s o) ((contrEquiv1 dot_S4x2048x4096_S4096x4096_S4x2048x4096_2_1_01_0_n_n 4096 rfl rfl).symm i) = ix2 o i := by
    funext a; refine Fin.ext ?_
    match a with
    | ⟨0, _⟩ => exact rhs_axis0 _ _
    | ⟨1, _⟩ => exact (rhs_axis1 _ _).trans hk
  rw [hl, hr]

/-! ## The result at an index -/

/-- The reference's result at `(bb, s, o)` is the specification's. -/
theorem refOut_apply (x : FVec Ideal S4x2048x4096 .f32) (wp : IVec S8388608 32) (sc : FVec Ideal S262144 .f32)
    (b : FVec Ideal S4096 .f32) (bb : Fin 4) (s : Fin 2048) (o : Fin 4096) :
    refOut (F := Ideal) x wp sc b (ix3 bb s o)
      = Cert.Spec.result (fun bb s i => x (ix3 bb s i)) (fun n => wp (ix1 n)) (fun n => sc (ix1 n)) (fun o => b (ix1 o)) bb s o := by
  unfold refOut
  rw [addf_apply, dot_apply, overRows_apply, lastAxis_apply]
  simp only [Cert.Spec.result]
  rw [Finset.sum_congr rfl fun i _ => congrArg (x (ix3 bb s i) * ·) (wmat_apply wp sc o i)]

end Cert.ReferenceIdeal.HandRead

end
-- ==== Proof.lean ====
/-
  The certificate's claim: the word-level kernel program, its idealization and the idealized reference each run to
  the end leaving their arguments unchanged, and the two idealized programs end with equal results.

  Both compute `out[r, o] = (∑ i, x[r, i] * W[o, i]) + bias[o]` over the extended reals, where `W` is the 4096 × 4096
  matrix dequantized from packed 4-bit codes: entry `e` of row `o` is the codebook value of a nibble of packed
  word `e / 2` of the row (the high nibble for even `e`, the low one for odd `e`) times the row's scale number
  `e / 64` (Proof/Spec.lean). The kernel program computes `W` in a first pallas_call (nested selects on the code's
  bits; the sign applied by a product with ±1) and the product in a second one that accumulates eight column
  blocks of 512 in a scratch carried across grid points and adds the bias at the last; the reference gathers the
  codebook and contracts in one `dot_general`. The two agree by regrouping a finite sum, which needs no finiteness
  of the inputs: the precondition is never opened.
-/
import proofs.«409063_j22093311771209_3_alg».proof.Defs
import proofs.«409063_j22093311771209_3_alg».proof.Proof.Gen.Kernel
import proofs.«409063_j22093311771209_3_alg».proof.Proof.Gen.KernelIdeal
import proofs.«409063_j22093311771209_3_alg».proof.Proof.Gen.ReferenceIdeal
import proofs.«409063_j22093311771209_3_alg».proof.Proof.Gen.Pre_finite_inputs
import proofs.«409063_j22093311771209_3_alg».proof.Proof.K.Run
import proofs.«409063_j22093311771209_3_alg».proof.Proof.KI.Run
import proofs.«409063_j22093311771209_3_alg».proof.Proof.KIValue
import proofs.«409063_j22093311771209_3_alg».proof.Proof.Val1
import proofs.«409063_j22093311771209_3_alg».proof.Proof.RefRun
import proofs.«409063_j22093311771209_3_alg».proof.Proof.RefRead
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k [Cert.Kernel.Facts] [Cert.Pre_finite_inputs.Facts] : Cert.frame_Kernel :=
  fun m ρ _ => Cert.Kernel.Hand.frame m ρ

/-- So does its idealization. -/
theorem frame_ki [Cert.KernelIdeal.Facts] [Cert.Pre_finite_inputs.Facts] : Cert.frame_KernelIdeal :=
  fun m ρ _ => Cert.KernelIdeal.Hand.frame m ρ

/-- And the reference: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Hand.run (F := Ideal) m ρ)

/-- From memories agreeing on the arguments both idealized programs end with the result array at
    `Cert.Spec.result` of the arguments, index by index. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Hand.W5 (F := Ideal) m ρ c (Proc.devRef .tc Cert.KernelIdeal.main_v6), ?_, ?_⟩
  · exact (θ_run Cert.KernelIdeal.defs _ _).mono (fun _ h c =>
      ⟨h c _ (Cert.KernelIdeal.Hand.mem_uc Cert.KernelIdeal.main_v6 (by decide)),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c),
       (h c _ (Cert.KernelIdeal.Hand.mem_uc Cert.KernelIdeal.main_arg2 (by decide))).trans (Cert.KernelIdeal.Hand.W5_main_arg2 m ρ c),
       (h c _ (Cert.KernelIdeal.Hand.mem_uc Cert.KernelIdeal.main_arg3 (by decide))).trans (Cert.KernelIdeal.Hand.W5_main_arg3 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Hand.run (F := Ideal) m' ρ')
    funext j
    obtain ⟨bb, s, o, rfl⟩ : ∃ (bb : Fin 4) (s : Fin 2048) (o : Fin 4096), j = ValueIdx.ix3 bb s o :=
      ⟨j 0, j 1, j 2, ValueIdx.eq_ix3 j⟩
    rw [Cert.ReferenceIdeal.HandRead.refOut_apply, (hagree c).1, (hagree c).2.1, (hagree c).2.2.1, (hagree c).2.2.2]
    exact (Cert.KernelIdeal.HandVal.kout_apply_of m ρ (fun V c r o => Cert.KernelIdeal.HandVal1.arr1_apply V c r o) c bb s o).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
